-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S32x512x1x1 : Shape := ⟨4, ![32, 512, 1, 1]⟩
abbrev S512x32x1x1 : Shape := ⟨4, ![512, 32, 1, 1]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S32x512x1x1 : S_.BroadcastsInDim S32x512x1x1 (![] : Fin 0 → Fin S32x512x1x1.rank)
  reducesTo_S32x512x1x1_S_d0_1_2_3 : S32x512x1x1.ReducesTo [0, 1, 2, 3] S_
  bcast_S_S512x32x1x1 : S_.BroadcastsInDim S512x32x1x1 (![] : Fin 0 → Fin S512x32x1x1.rank)
  reducesTo_S512x32x1x1_S_d0_1_2_3 : S512x32x1x1.ReducesTo [0, 1, 2, 3] S_

variable [Facts]

def fn {F : FTy → Type} [FloatOps F] (main_arg0 : FVec F S32x512x32x32 .f32) (main_arg1 : FVec F S32x512x1x1 .f32) (main_arg2 : FVec F S512x32x1x1 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S32x512x1x1 .f32 := Host.absf main_arg1
  let main_cst_0 : FVec F S_ .f32 := constant S_ .f32 0x7F800000#32
  let main_v5 : FVec F S32x512x1x1 .f32 := broadcastInDim S32x512x1x1 ![] bcast_S_S32x512x1x1 main_cst_0
  let main_v6 : IVec S32x512x1x1 1 := cmpf .olt main_v4 main_v5
  let main_c_1 : IVec S_ 1 := constantI S_ 1 1#1
  let main_v7 : IVec S_ 1 := (fun x v => Host.reduce IntOp.andi x v reducesTo_S32x512x1x1_S_d0_1_2_3 h_S_) main_v6 main_c_1
  let main_v8 : IVec S_ 1 := andi main_v3 main_v7
  let main_v9 : FVec F S512x32x1x1 .f32 := Host.absf main_arg2
  let main_cst_2 : FVec F S_ .f32 := constant S_ .f32 0x7F800000#32
  let main_v10 : FVec F S512x32x1x1 .f32 := broadcastInDim S512x32x1x1 ![] bcast_S_S512x32x1x1 main_cst_2
  let main_v11 : IVec S512x32x1x1 1 := cmpf .olt main_v9 main_v10
  let main_c_3 : IVec S_ 1 := constantI S_ 1 1#1
  let main_v12 : IVec S_ 1 := (fun x v => Host.reduce IntOp.andi x v reducesTo_S512x32x1x1_S_d0_1_2_3 h_S_) main_v11 main_c_3
  let main_v13 : IVec S_ 1 := andi main_v8 main_v12
  main_v13
-- ==== Kernel.lean ====
abbrev S32x512x32x32 : Shape := ⟨4, ![32, 512, 32, 32]⟩
abbrev S32x512x1x1 : Shape := ⟨4, ![32, 512, 1, 1]⟩
abbrev S512x32x1x1 : Shape := ⟨4, ![512, 32, 1, 1]⟩
abbrev S16384x1024 : Shape := ⟨2, ![16384, 1024]⟩
abbrev S32x512 : Shape := ⟨2, ![32, 512]⟩
abbrev S512x32 : Shape := ⟨2, ![512, 32]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩
abbrev S512x2 : Shape := ⟨2, ![512, 2]⟩
abbrev S32x2 : Shape := ⟨2, ![32, 2]⟩
abbrev S32x1 : Shape := ⟨2, ![32, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x512x32x32, .f32⟩
  | .hbm, ⟨1, _⟩ => ⟨S32x512x1x1, .f32⟩
  | .hbm, ⟨2, _⟩ => ⟨S512x32x1x1, .f32⟩
  | .hbm, ⟨3, _⟩ => ⟨S16384x1024, .f32⟩
  | .hbm, ⟨4, _⟩ => ⟨S32x512, .f32⟩
  | .hbm, ⟨5, _⟩ => ⟨S512x32, .f32⟩
  | .hbm, ⟨6, _⟩ => ⟨S16384x1, .f32⟩
  | .hbm, ⟨7, _⟩ => ⟨S32x512x1x1, .f32⟩
  | .local _ .vmem, ⟨0, _⟩ => ⟨S512x1024, .f32⟩
  | .local _ .vmem, ⟨1, _⟩ => ⟨S512x1024, .f32⟩
  | .local _ .vmem, ⟨2, _⟩ => ⟨S32x512, .f32⟩
  | .local _ .vmem, ⟨3, _⟩ => ⟨S512x32, .f32⟩
  | .local _ .vmem, ⟨4, _⟩ => ⟨S512x1, .f32⟩
  | .local _ .vmem, ⟨5, _⟩ => ⟨S512x1, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x32x32_S16384x1024 : S32x512x32x32.ShapeCasts S16384x1024
  shapeCasts_S32x512x1x1_S32x512 : S32x512x1x1.ShapeCasts S32x512
  shapeCasts_S512x32x1x1_S512x32 : S512x32x1x1.ShapeCasts S512x32
  shapeCasts_S16384x1_S32x512x1x1 : S16384x1.ShapeCasts S32x512x1x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  concatenates_S512x1_S512x1_S512x2_d1 : Shape.Concatenates [S512x1, S512x1] S512x2 1
  slices_S32x2_o0_0_S32x1 : S32x2.Slices ![0, 0] S32x1
  slices_S32x2_o0_1_S32x1 : S32x2.Slices ![0, 1] S32x1
  inb_S512x1_S512x1_0_0 : ∀ a, (![0, 0] : Fin 2 → Nat) a + S512x1.size a ≤ S512x1.size a
  h_S512x1 : 0 < S512x1.numel
  dot_S32x512_S512x2_S32x2_1_0_0_1_n_n_wf : DotDims.WF S32x512 S512x2 S32x2 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

def dot_S32x512_S512x2_S32x2_1_0_0_1_n_n : DotDims S32x512 S512x2 S32x2 where
  lhsContracting := [1]
  rhsContracting := [0]
  lhsNonContracting := [0]
  rhsNonContracting := [1]
  lhsBatch := []
  rhsBatch := []
  wf := dot_S32x512_S512x2_S32x2_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_call0_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512x1x1 : Shape := ⟨4, ![32, 512, 1, 1]⟩
abbrev S512x32x1x1 : Shape := ⟨4, ![512, 32, 1, 1]⟩
abbrev S16384x1024 : Shape := ⟨2, ![16384, 1024]⟩
abbrev S16384x1 : Shape := ⟨2, ![16384, 1]⟩
abbrev S16384 : Shape := ⟨1, ![16384]⟩
abbrev S32x512 : Shape := ⟨2, ![32, 512]⟩
abbrev S512x32 : Shape := ⟨2, ![512, 32]⟩
abbrev S_ : Shape := ⟨0, ![]⟩
abbrev S64x512 : Shape := ⟨2, ![64, 512]⟩
abbrev S1 : Shape := ⟨1, ![1]⟩
abbrev S512x128 : Shape := ⟨2, ![512, 128]⟩
abbrev S128x512 : Shape := ⟨2, ![128, 512]⟩
abbrev S2048x1024 : Shape := ⟨2, ![2048, 1024]⟩
abbrev S2048x1 : Shape := ⟨2, ![2048, 1]⟩
abbrev S2048 : Shape := ⟨1, ![2048]⟩
abbrev S64x128 : Shape := ⟨2, ![64, 128]⟩

abbrev nBuf : Space → Nat
  | .hbm => 34
  | .vmem => 10
  | .smem => 0
  | _ => 0

abbrev bufTy : (tb : Table) → Fin (tcTables nBuf tb) → BufTy
  | .hbm, ⟨0, _⟩ => ⟨S32x512x32x32, .f32⟩
  | .hbm, ⟨1, _⟩ => ⟨S32x512x1x1, .f32⟩
  | .hbm, ⟨2, _⟩ => ⟨S512x32x1x1, .f32⟩
  | .hbm, ⟨3, _⟩ => ⟨S16384x1024, .f32⟩
  | .hbm, ⟨4, _⟩ => ⟨S16384x1, .f32⟩
  | .hbm, ⟨5, _⟩ => ⟨S16384x1, .f32⟩
  | .hbm, ⟨6, _⟩ => ⟨S16384, .f32⟩
  | .hbm, ⟨7, _⟩ => ⟨S32x512, .f32⟩
  | .hbm, ⟨8, _⟩ => ⟨S16384, .f32⟩
  | .hbm, ⟨9, _⟩ => ⟨S32x512, .f32⟩
  | .hbm, ⟨10, _⟩ => ⟨S32x512, .f32⟩
  | .hbm, ⟨11, _⟩ => ⟨S512x32, .f32⟩
  | .hbm, ⟨12, _⟩ => ⟨S512x32, .f32⟩
  | .hbm, ⟨13, _⟩ => ⟨S32x512, .f32⟩
  | .hbm, ⟨14, _⟩ => ⟨S_, .f32⟩
  | .hbm, ⟨15, _⟩ => ⟨S64x512, .f32⟩
  | .hbm, ⟨16, _⟩ => ⟨S_, .i32⟩
  | .hbm, ⟨17, _⟩ => ⟨S1, .i32⟩
  | .hbm, ⟨18, _⟩ => ⟨S64x512, .f32⟩
  | .hbm, ⟨19, _⟩ => ⟨S_, .i32⟩
  | .hbm, ⟨20, _⟩ => ⟨S1, .i32⟩
  | .hbm, ⟨21, _⟩ => ⟨S64x512, .f32⟩
  | .hbm, ⟨22, _⟩ => ⟨S_, .f32⟩
  | .hbm, ⟨23, _⟩ => ⟨S512x128, .f32⟩
  | .hbm, ⟨24, _⟩ => ⟨S_, .i32⟩
  | .hbm, ⟨25, _⟩ => ⟨S1, .i32⟩
  | .hbm, ⟨26, _⟩ => ⟨S512x128, .f32⟩
  | .hbm, ⟨27, _⟩ => ⟨S_, .f32⟩
  | .hbm, ⟨28, _⟩ => ⟨S128x512, .f32⟩
  | .hbm, ⟨29, _⟩ => ⟨S_, .i32⟩
  | .hbm, ⟨30, _⟩ => ⟨S1, .i32⟩
  | .hbm, ⟨31, _⟩ => ⟨S128x512, .f32⟩
  | .hbm, ⟨32, _⟩ => ⟨S32x512, .f32⟩
  | .hbm, ⟨33, _⟩ => ⟨S32x512x1x1, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S64x512, .f32⟩
  | .local _ .vmem, ⟨7, _⟩ => ⟨S512x128, .f32⟩
  | .local _ .vmem, ⟨8, _⟩ => ⟨S128x512, .f32⟩
  | .local _ .vmem, ⟨9, _⟩ => ⟨S32x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_cst : Ref sig .tc := ⟨.hbm, 14, rfl⟩
abbrev main_call0_v10 : Ref sig .tc := ⟨.hbm, 15, rfl⟩
abbrev main_call0_c : Ref sig .tc := ⟨.hbm, 16, rfl⟩
abbrev main_call0_v11 : Ref sig .tc := ⟨.hbm, 17, rfl⟩
abbrev main_call0_v12 : Ref sig .tc := ⟨.hbm, 18, rfl⟩
abbrev main_call0_c_0 : Ref sig .tc := ⟨.hbm, 19, rfl⟩
abbrev main_call0_v13 : Ref sig .tc := ⟨.hbm, 20, rfl⟩
abbrev main_call0_v14 : Ref sig .tc := ⟨.hbm, 21, rfl⟩
abbrev main_call0_cst_1 : Ref sig .tc := ⟨.hbm, 22, rfl⟩
abbrev main_call0_v15 : Ref sig .tc := ⟨.hbm, 23, rfl⟩
abbrev main_call0_c_2 : Ref sig .tc := ⟨.hbm, 24, rfl⟩
abbrev main_call0_v16 : Ref sig .tc := ⟨.hbm, 25, rfl⟩
abbrev main_call0_v17 : Ref sig .tc := ⟨.hbm, 26, rfl⟩
abbrev main_call0_cst_3 : Ref sig .tc := ⟨.hbm, 27, rfl⟩
abbrev main_call0_v18 : Ref sig .tc := ⟨.hbm, 28, rfl⟩
abbrev main_call0_c_4 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

class Facts₀ : Prop where
  shapeCasts_S32x512x32x32_S16384x1024 : S32x512x32x32.ShapeCasts S16384x1024
  shapeCasts_S16384x1_S16384 : S16384x1.ShapeCasts S16384
  shapeCasts_S16384_S32x512 : S16384.ShapeCasts S32x512
  shapeCasts_S32x512x1x1_S32x512 : S32x512x1x1.ShapeCasts S32x512
  transposes_S32x512_S512x32_1_0 : S32x512.Transposes [1, 0] S512x32
  shapeCasts_S512x32x1x1_S512x32 : S512x32x1x1.ShapeCasts S512x32
  transposes_S512x32_S32x512_1_0 : S512x32.Transposes [1, 0] S32x512
  bcast_S_S64x512 : S_.BroadcastsInDim S64x512 (![] : Fin 0 → Fin S64x512.rank)
  bcast_S_S1 : S_.BroadcastsInDim S1 (![] : Fin 0 → Fin S1.rank)
  bcast_S_S512x128 : S_.BroadcastsInDim S512x128 (![] : Fin 0 → Fin S512x128.rank)
  bcast_S_S128x512 : S_.BroadcastsInDim S128x512 (![] : Fin 0 → Fin S128x512.rank)
  shapeCasts_S32x512_S32x512x1x1 : S32x512.ShapeCasts S32x512x1x1
  inb_S2048x1_S2048x1_0_0 : ∀ a, (![0, 0] : Fin 2 → Nat) a + S2048x1.size a ≤ S2048x1.size a
  h_S2048x1 : 0 < S2048x1.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x1_S2048x1 : S2048x1.ShapeCasts S2048x1
  reduces_S2048x1024_S2048 : S2048x1024.Reduces [1] S2048
  shapeCasts_S2048_S2048x1 : S2048.ShapeCasts S2048x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S64x512_o0_0_S32x512 : S64x512.Slices ![0, 0] S32x512
  slices_S64x512_o32_0_S32x512 : S64x512.Slices ![32, 0] S32x512
  inb_S32x512_S32x512_0_0 : ∀ a, (![0, 0] : Fin 2 → Nat) a + S32x512.size a ≤ S32x512.size a
  h_S32x512 : 0 < S32x512.numel
  scatter_S64x512_S1_S32x512_01_n_0_0_wf : ScatterDims.WF S64x512 S1 S32x512 [0, 1] [] [0] 0
  scatter_S512x128_S1_S512x32_01_n_1_0_wf : ScatterDims.WF S512x128 S1 S512x32 [0, 1] [] [1] 0
  scatter_S128x512_S1_S32x512_01_n_0_0_wf : ScatterDims.WF S128x512 S1 S32x512 [0, 1] [] [0] 0
  dot_S64x512_S512x128_S64x128_1_0_0_1_n_n_wf : DotDims.WF S64x512 S512x128 S64x128 [1] [0] [0] [1] [] []
  dot_S64x128_S128x512_S64x512_1_0_0_1_n_n_wf : DotDims.WF S64x128 S128x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

def scatter_S64x512_S1_S32x512_01_n_0_0 : ScatterDims S64x512 S1 S32x512 where
  updateWindowDims := [0, 1]
  insertedWindowDims := []
  scatterDimsToOperandDims := [0]
  indexVectorDim := 0
  wf := scatter_S64x512_S1_S32x512_01_n_0_0_wf
def scatter_S512x128_S1_S512x32_01_n_1_0 : ScatterDims S512x128 S1 S512x32 where
  updateWindowDims := [0, 1]
  insertedWindowDims := []
  scatterDimsToOperandDims := [1]
  indexVectorDim := 0
  wf := scatter_S512x128_S1_S512x32_01_n_1_0_wf
def scatter_S128x512_S1_S32x512_01_n_0_0 : ScatterDims S128x512 S1 S32x512 where
  updateWindowDims := [0, 1]
  insertedWindowDims := []
  scatterDimsToOperandDims := [0]
  indexVectorDim := 0
  wf := scatter_S128x512_S1_S32x512_01_n_0_0_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf

abbrev win0_0 : Pipeline.Window sig grid0 :=
  Pipeline.Window.ofSpec (Memref.whole main_call0_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1_0) S2048x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_call0_v14) false false (stage1_0 0) (sem1_0 0) (Memref.isWhole_whole _) (hstage1_0 0)

abbrev win1_1 : Pipeline.Window sig grid1 :=
  Pipeline.Window.whole (Memref.whole main_call0_v17) false false (stage1_1 0) (sem1_1 0) (Memref.isWhole_whole _) (hstage1_1 0)

abbrev win1_2 : Pipeline.Window sig grid1 :=
  Pipeline.Window.whole (Memref.whole main_call0_v20) false false (stage1_2 0) (sem1_2 0) (Memref.isWhole_whole _) (hstage1_2 0)

abbrev win1_3 : Pipeline.Window sig grid1 :=
  Pipeline.Window.whole (Memref.whole main_call0_v21) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The channel-attention map as mathematics, over the extended reals.

  The activations are read as a matrix `X` of 32·512 rows (one per batch and channel, batch-major) and 1024 columns
  (the spatial positions). Each row is pooled twice: its maximum, and its sum times 1/1024. For a batch `b` the two
  pooled vectors (one entry per channel) go through the same two-layer map: `W1` (32 × 512), a clamp at zero, then
  `W2` (512 × 32); the two results are added and the logistic function applied.

  Two arrangements of that map are stated here. `att` adds the two clamped hidden vectors first and applies `W2`
  once. `attRef` stacks the pooled vectors as 64 rows, pads the hidden width from 32 to 128 with zero columns of the
  first layer and zero rows of the second, applies both layers to all 64 rows and adds row `b` to row `32 + b`.
  They agree (`attRef_eq_att`): a padded hidden unit is `max 0 0 · 0 = 0`, and `W2` distributes over the sum of two
  clamped values because both are nonnegative — on the extended reals that needs no finiteness.
-/
import Mathlib.Data.EReal.Operations
import Mathlib.Algebra.BigOperators.Fin
import Idealize.ShloMosaic.PureOps.Ideal
import Idealize.ShloMosaic.PureOps.Ideal.Laws
import Idealize.ShloMosaic.Lib.ValueIdx

open scoped BigOperators

noncomputable section

namespace Cert.Lcam

open Idealize.ShloMosaic Idealize.ShloMosaic.ValueIdx

/-- The activations as rows of spatial positions. -/
abbrev SX : Shape := ⟨2, ![16384, 1024]⟩
/-- The first layer's weights, hidden unit by channel. -/
abbrev SW1 : Shape := ⟨2, ![32, 512]⟩
/-- The second layer's weights, channel by hidden unit. -/
abbrev SW2 : Shape := ⟨2, ![512, 32]⟩
/-- The attention map, batch by channel by two unit axes. -/
abbrev SOut : Shape := ⟨4, ![32, 512, 1, 1]⟩

/-- The row of `X` that holds channel `c` of batch `b`. -/
def row (b : Fin 32) (c : Fin 512) : Fin 16384 := ⟨b.val * 512 + c.val, by have := b.isLt; have := c.isLt; omega⟩

/-- The value a running maximum starts from. -/
def negInf : EReal := Ideal.ofBits .f32 0xFF800000#32
/-- The clamp's threshold. -/
def zero : EReal := Ideal.ofBits .f32 0x00000000#32
/-- The reciprocal of the number of spatial positions, 1/1024. -/
def invHW : EReal := Ideal.ofBits .f32 0x3A800000#32

theorem zero_eq : zero = 0 := Ideal.ofBits_zero_f32

/-- A row's maximum. -/
def rowMax (X : FVec Ideal SX .f32) (r : Fin 16384) : EReal :=
  (Finset.univ : Finset (Fin 1024)).fold max negInf (fun k => X (ix2 r k))

/-- A row's mean: its sum times 1/1024. -/
def rowAvg (X : FVec Ideal SX .f32) (r : Fin 16384) : EReal :=
  (∑ k : Fin 1024, X (ix2 r k)) * invHW

/-- Hidden unit `j` of batch `b` for a pooled vector `P`: the first layer, clamped at zero. -/
def hidden (W1 : FVec Ideal SW1 .f32) (P : Fin 16384 → EReal) (b j : Fin 32) : EReal :=
  max (∑ c' : Fin 512, W1 (ix2 j c') * P (row b c')) zero

/-- The attention of channel `c` in batch `b`: the second layer on the sum of the two hidden vectors, then the logistic function. -/
def att (X : FVec Ideal SX .f32) (W1 : FVec Ideal SW1 .f32) (W2 : FVec Ideal SW2 .f32) (b : Fin 32) (c : Fin 512) : EReal :=
  Ideal.logistic (∑ j : Fin 32, W2 (ix2 c j) * (hidden W1 (rowMax X) b j + hidden W1 (rowAvg X) b j))

/-- The attention map as an array. -/
def out (X : FVec Ideal SX .f32) (W1 : FVec Ideal SW1 .f32) (W2 : FVec Ideal SW2 .f32) : FVec Ideal SOut .f32 :=
  fun i => att X W1 W2 ⟨(i 0).val, (i 0).isLt⟩ ⟨(i 1).val, (i 1).isLt⟩

theorem out_apply (X : FVec Ideal SX .f32) (W1 : FVec Ideal SW1 .f32) (W2 : FVec Ideal SW2 .f32)
    (b : Fin 32) (c : Fin 512) (u v : Fin 1) : out X W1 W2 (ix4 b c u v) = att X W1 W2 b c := rfl

/-! ## The stacked and padded arrangement -/

/-- The stacked pooled rows: the 32 batches' maxima, then their means. -/
def stacked (X : FVec Ideal SX .f32) (r : Fin 64) (c' : Fin 512) : EReal :=
  if h : r.val < 32 then rowMax X (row ⟨r.val, h⟩ c') else rowAvg X (row ⟨r.val - 32, by have := r.isLt; omega⟩ c')

/-- The first layer transposed, its 32 hidden columns padded to 128 with zeros. -/
def w1Pad (W1 : FVec Ideal SW1 .f32) (c' : Fin 512) (j : Fin 128) : EReal :=
  if h : j.val < 32 then W1 (ix2 ⟨j.val, h⟩ c') else zero

/-- The second layer transposed, its 32 hidden rows padded to 128 with zeros. -/
def w2Pad (W2 : FVec Ideal SW2 .f32) (j : Fin 128) (c : Fin 512) : EReal :=
  if h : j.val < 32 then W2 (ix2 c ⟨j.val, h⟩) else zero

/-- Both layers on stacked row `r`, at channel `c`. -/
def mlpRow (X : FVec Ideal SX .f32) (W1 : FVec Ideal SW1 .f32) (W2 : FVec Ideal SW2 .f32) (r : Fin 64) (c : Fin 512) : EReal :=
  ∑ j : Fin 128, max (∑ c' : Fin 512, stacked X r c' * w1Pad W1 c' j) zero * w2Pad W2 j c

/-- The attention in the stacked arrangement: row `b` plus row `32 + b`, then the logistic function. -/
def attRef (X : FVec Ideal SX .f32) (W1 : FVec Ideal SW1 .f32) (W2 : FVec Ideal SW2 .f32) (b : Fin 32) (c : Fin 512) : EReal :=
  Ideal.logistic (mlpRow X W1 W2 ⟨b.val, by have := b.isLt; omega⟩ c + mlpRow X W1 W2 ⟨32 + b.val, by have := b.isLt; omega⟩ c)

/-- A sum over 128 hidden units whose terms vanish from unit 32 on is the sum over the first 32. -/
theorem sum_pad (f : Fin 128 → EReal) (hf : ∀ j : Fin 128, 32 ≤ j.val → f j = 0) :
    ∑ j : Fin 128, f j = ∑ j : Fin 32, f ⟨j.val, by have := j.isLt; omega⟩ := by
  have h := Fin.sum_univ_add (a := 32) (b := 96) (fun i : Fin (32 + 96) => f (Fin.cast (by norm_num) i))
  have e : ∑ j : Fin 128, f j = ∑ i : Fin (32 + 96), f (Fin.cast (by norm_num) i) :=
    (Fintype.sum_equiv (finCongr (by norm_num : 32 + 96 = 128)) _ _ (fun i => rfl)).symm
  rw [e, h]
  have hz : ∑ i : Fin 96, f (Fin.cast (by norm_num) (Fin.natAdd 32 i)) = 0 :=
    Finset.sum_eq_zero fun i _ => hf _ (by simp)
  rw [hz, add_zero]
  exact Finset.sum_congr rfl fun j _ => congrArg f (Fin.ext (by simp))

/-- One stacked row through both padded layers is the 32 genuine hidden units through `W2`. -/
theorem mlpRow_eq (X : FVec Ideal SX .f32) (W1 : FVec Ideal SW1 .f32) (W2 : FVec Ideal SW2 .f32) (r : Fin 64) (c : Fin 512) :
    mlpRow X W1 W2 r c
      = ∑ j : Fin 32, W2 (ix2 c j) * max (∑ c' : Fin 512, W1 (ix2 j c') * stacked X r c') zero := by
  unfold mlpRow
  rw [sum_pad]
  · refine Finset.sum_congr rfl fun j _ => ?_
    have hj : j.val < 32 := j.isLt
    simp only [w1Pad, w2Pad, dif_pos hj]
    rw [mul_comm]
    congr 2
    exact Finset.sum_congr rfl fun c' _ => mul_comm _ _
  · intro j hj
    have hj' : ¬ j.val < 32 := by omega
    simp only [w2Pad, dif_neg hj', zero_eq, mul_zero]

/-- THE TWO ARRANGEMENTS AGREE. -/
theorem attRef_eq_att (X : FVec Ideal SX .f32) (W1 : FVec Ideal SW1 .f32) (W2 : FVec Ideal SW2 .f32) (b : Fin 32) (c : Fin 512) :
    attRef X W1 W2 b c = att X W1 W2 b c := by
  unfold attRef att
  congr 1
  rw [mlpRow_eq, mlpRow_eq, ← Finset.sum_add_distrib]
  refine Finset.sum_congr rfl fun j _ => ?_
  have hb : b.val < 32 := b.isLt
  have e1 : ∀ c' : Fin 512, stacked X ⟨b.val, by omega⟩ c' = rowMax X (row b c') := fun c' => by
    simp only [stacked, dif_pos hb]
  have e2 : ∀ c' : Fin 512, stacked X ⟨32 + b.val, by omega⟩ c' = rowAvg X (row b c') := fun c' => by
    have hn : ¬ (32 + b.val < 32) := by omega
    simp only [stacked, dif_neg hn]
    congr 2
    exact Fin.ext (by simp)
  simp only [e1, e2]
  unfold hidden
  rw [EReal.left_distrib_of_nonneg (by rw [zero_eq]; exact le_max_right _ _) (by rw [zero_eq]; exact le_max_right _ _)]

end Cert.Lcam

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelPay.lean ====
/-
  The kernel body's stored value at one entry. For a block of 512 channels by 1024 spatial positions, channel `cc` of
  the result is the logistic function of row `cc` of the second layer applied to the sum of the two clamped hidden
  vectors — the first layer on the channels' maxima, and on their sums times 1/1024.
-/
import proofs.«137948_g2000006314751908_pallasbulk_691_2_alg».proof.Proof.Gen.KernelIdeal.Skeleton
import proofs.«137948_g2000006314751908_pallasbulk_691_2_alg».proof.Proof.Spec
import proofs.«137948_g2000006314751908_pallasbulk_691_2_alg».proof.Proof.LibMatmulPlain
import proofs.«137948_g2000006314751908_pallasbulk_691_2_alg».proof.Proof.LibKeepdims
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-! ## The pieces, each over a variable operand -/

/-- The entry a reduction along the positions reads for channel `c'` at position `k`: row `c'`, column `k`. -/
private theorem lift_row (h : S512x1024.Reduces [1] S512) (c' : Fin 512) (k : Fin 1024) :
    h.lift (ix1 c') k = ix2 c' k :=
  funext fun a => Fin.ext (by match a with | ⟨0, _⟩ => rfl | ⟨1, _⟩ => rfl)

/-- A channel's running maximum over its 1024 positions, started from minus infinity. -/
private theorem rowMax_apply (x : FVec Ideal S512x1024 .f32) (h : S512x1024.Reduces [1] S512) (hφ : FKind.Formats .f32)
    (hacc : (0xFF800000#32 : BitVec 32) = FKind.maximumf.neutral .f32 hφ) (c' : Fin 512) :
    multiReduction (F := Ideal) .maximumf [1] S512 x 0xFF800000#32 h hφ hacc (ix1 c')
      = (Finset.univ : Finset (Fin 1024)).fold max Cert.Lcam.negInf (fun k => x (ix2 c' k)) := by
  refine (Ideal.multiReduction_maximumf_single x _ h hφ hacc (ix1 c')).trans ?_
  have e : (x ∘ h.lift (ix1 c')) = fun k : Fin 1024 => x (ix2 c' k) := funext fun k => congrArg x (lift_row h c' k)
  exact congrArg (fun f => (Finset.univ : Finset (Fin 1024)).fold max Cert.Lcam.negInf f) e

/-- A channel's sum over its 1024 positions. -/
private theorem rowSum_apply (x : FVec Ideal S512x1024 .f32) (h : S512x1024.Reduces [1] S512) (hφ : FKind.Formats .f32)
    (hacc : (0x00000000#32 : BitVec 32) = FKind.add.neutral .f32 hφ) (c' : Fin 512) :
    multiReduction (F := Ideal) .add [1] S512 x 0x00000000#32 h hφ hacc (ix1 c') = ∑ k : Fin 1024, x (ix2 c' k) := by
  refine (Ideal.multiReduction_add_single x _ h hφ hacc (ix1 c')).trans ?_
  exact Finset.sum_congr rfl fun k _ => congrArg x (lift_row h c' k)

/-- Two columns side by side: column 0 of the pair is the first column. -/
private theorem pair_col0 (a b : FVec Ideal S512x1 .f32) (h : Shape.Concatenates [S512x1, S512x1] S512x2 1) (c' : Fin 512) :
    concatenate S512x2 1 [⟨S512x1, a⟩, ⟨S512x1, b⟩] h (ix2 c' (0 : Fin 2)) = a (ix2 c' (0 : Fin 1)) :=
  concatenate_pair_apply_left 1 a b h _ rfl _ (fun ax => by match ax with | ⟨0, _⟩ => rfl | ⟨1, _⟩ => rfl)

/-- … and column 1 of the pair is the second column. -/
private theorem pair_col1 (a b : FVec Ideal S512x1 .f32) (h : Shape.Concatenates [S512x1, S512x1] S512x2 1) (c' : Fin 512) :
    concatenate S512x2 1 [⟨S512x1, a⟩, ⟨S512x1, b⟩] h (ix2 c' (1 : Fin 2)) = b (ix2 c' (0 : Fin 1)) :=
  concatenate_pair_apply_right 1 a b h _ rfl rfl _
    (fun ax hax => by match ax with | ⟨0, _⟩ => rfl | ⟨1, _⟩ => exact absurd rfl hax) rfl

/-- The first column cut out of a two-column matrix. -/
private theorem cut_col0 (y : FVec Ideal S32x2 .f32) (h : S32x2.Slices ![0, 0] S32x1) (j : Fin 32) (u : Fin 1) :
    extractStridedSlice S32x1 ![0, 0] y h (ix2 j u) = y (ix2 j (0 : Fin 2)) :=
  slice2_axis1_apply 0 y h j u 0 (by have := u.isLt; show (0 : ℕ) = 0 + u.val; omega)

/-- The second column cut out of a two-column matrix. -/
private theorem cut_col1 (y : FVec Ideal S32x2 .f32) (h : S32x2.Slices ![0, 1] S32x1) (j : Fin 32) (u : Fin 1) :
    extractStridedSlice S32x1 ![0, 1] y h (ix2 j u) = y (ix2 j (1 : Fin 2)) :=
  slice2_axis1_apply 1 y h j u 1 (by have := u.isLt; show (1 : ℕ) = 1 + u.val; omega)

/-! ## The stored value -/

theorem k0_pay1_apply (w1 : FVec Ideal S32x512 .f32) (w2 : FVec Ideal S512x32 .f32) (xb : FVec Ideal S512x1024 .f32)
    (cc : Fin 512) (u : Fin 1) :
    k0_pay1 (F := Ideal) w1 w2 xb (ix2 cc u)
      = Ideal.logistic (∑ j : Fin 32, w2 (ix2 cc j) *
          (max (∑ c' : Fin 512, w1 (ix2 j c') *
              (Finset.univ : Finset (Fin 1024)).fold max Cert.Lcam.negInf (fun k => xb (ix2 c' k))) Cert.Lcam.zero
           + max (∑ c' : Fin 512, w1 (ix2 j c') * ((∑ k : Fin 1024, xb (ix2 c' k)) * Cert.Lcam.invHW)) Cert.Lcam.zero)) := by
  unfold Cert.KernelIdeal.Gen.k0_pay1
  dsimp only
  -- the logistic function of the second layer's product
  refine congrArg Ideal.logistic ?_
  refine (Cert.LibMatmulPlain.matmul_zero_plain_apply dot_S512x32_S32x1_S512x1_1_0_0_1_n_n_wf none _ _ cc u).trans ?_
  refine Finset.sum_congr rfl fun j _ => ?_
  refine congrArg₂ (fun s t : EReal => s * t) (congrFun (shapeCast_self w2 _) (ix2 cc j)) ?_
  -- the two clamped hidden values: columns 0 and 1 of the clamped first-layer product
  refine congrArg₂ (fun s t : EReal => s + t) ?_ ?_
  · refine (cut_col0 _ _ j u).trans ?_
    refine congrArg (fun t : EReal => max t Cert.Lcam.zero) ?_
    refine (Cert.LibMatmulPlain.matmul_zero_plain_apply dot_S32x512_S512x2_S32x2_1_0_0_1_n_n_wf none _ _ j (0 : Fin 2)).trans ?_
    refine Finset.sum_congr rfl fun c' _ => ?_
    refine congrArg₂ (fun s t : EReal => s * t) (congrFun (shapeCast_self w1 _) (ix2 j c')) ?_
    refine (pair_col0 _ _ _ c').trans ?_
    refine (Cert.LibKeepdims.shapeCast_a_a1_apply _ _ c' 0).trans ?_
    refine (rowMax_apply _ _ _ _ c').trans ?_
    rw [shapeCast_self xb]
  · refine (cut_col1 _ _ j u).trans ?_
    refine congrArg (fun t : EReal => max t Cert.Lcam.zero) ?_
    refine (Cert.LibMatmulPlain.matmul_zero_plain_apply dot_S32x512_S512x2_S32x2_1_0_0_1_n_n_wf none _ _ j (1 : Fin 2)).trans ?_
    refine Finset.sum_congr rfl fun c' _ => ?_
    refine congrArg₂ (fun s t : EReal => s * t) (congrFun (shapeCast_self w1 _) (ix2 j c')) ?_
    refine (pair_col1 _ _ _ c').trans ?_
    refine congrArg (fun t : EReal => t * Cert.Lcam.invHW) ?_
    refine (Cert.LibKeepdims.shapeCast_a_a1_apply _ _ c' 0).trans ?_
    refine (rowSum_apply _ _ _ _ c').trans ?_
    rw [shapeCast_self xb]

end Cert.KernelIdeal.Pay

end
-- ==== Proof.KernelValue.lean ====
/-
  The kernel's run with its result named. The grid has one point per batch; point `b` reads the 512 rows of the
  activations that belong to batch `b` and both weight matrices whole, and writes rows `512 b … 512 b + 511` of a
  column of 16384 entries; the host then reads that column as the 32 × 512 × 1 × 1 attention map.
-/
import proofs.«137948_g2000006314751908_pallasbulk_691_2_alg».proof.Proof.Gen.KernelIdeal.Frame
import proofs.«137948_g2000006314751908_pallasbulk_691_2_alg».proof.Proof.KernelPay
import Idealize.ShloMosaic.Lib.Pipeline.Value
import Idealize.ShloMosaic.Lib.StableHlo.Run

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The activations as rows of spatial positions. -/
abbrev X (c : Dev nD) : FVec Ideal S16384x1024 .f32 :=
  shapeCast S16384x1024 (m ((c.tc : Thread nD τ).loc main_arg0) : S32x512x32x32.Idx → Ideal .f32) shapeCasts_S32x512x32x32_S16384x1024
/-- The first layer's weights as a matrix. -/
abbrev W1m (c : Dev nD) : FVec Ideal S32x512 .f32 :=
  shapeCast S32x512 (m ((c.tc : Thread nD τ).loc main_arg1) : S32x512x1x1.Idx → Ideal .f32) shapeCasts_S32x512x1x1_S32x512
/-- The second layer's weights as a matrix. -/
abbrev W2m (c : Dev nD) : FVec Ideal S512x32 .f32 :=
  shapeCast S512x32 (m ((c.tc : Thread nD τ).loc main_arg2) : S512x32x1x1.Idx → Ideal .f32) shapeCasts_S512x32x1x1_S512x32

/-! ## The arrays the region finds -/

theorem hz : (![0, 0] : Fin 2 → Nat) = fun _ => 0 := funext fun a => by fin_cases a <;> rfl

/-- The region finds the activations as the matrix of rows. -/
theorem V_X (c : Dev nD) : (V m c main_call0_v0 : S16384x1024.Idx → Ideal .f32) = X m c := by
  show StableHlo.after hostOps0 (fun b => m (c, b)) (Proc.devRef .tc main_call0_v0) = _
  after_results
  rfl
/-- The region finds the first layer's weights as a matrix. -/
theorem V_W1 (c : Dev nD) : (V m c main_call0_v1 : S32x512.Idx → Ideal .f32) = W1m m c := by
  show StableHlo.after hostOps0 (fun b => m (c, b)) (Proc.devRef .tc main_call0_v1) = _
  after_results
  rfl
/-- The region finds the second layer's weights as a matrix. -/
theorem V_W2 (c : Dev nD) : (V m c main_call0_v2 : S512x32.Idx → Ideal .f32) = W2m m c := by
  show StableHlo.after hostOps0 (fun b => m (c, b)) (Proc.devRef .tc main_call0_v2) = _
  after_results
  rfl

/-! ## The blocks a point reads -/

/-- The grid has 32 points. -/
theorem N_lt (t : Fin cfg0.N) : t.val < 32 := by
  have h := t.isLt
  have e : cfg0.N = 32 := N_0
  omega

/-- Point `t` reads block `(t, 0)` of the activations and writes block `(t, 0)` of the column; the weights' one block is at `(0, 0)`. -/
theorem idx_x : ∀ t : Fin cfg0.N, win0_0.index t 0 = t.val ∧ win0_0.index t 1 = 0 :=
  (by decide +kernel : ∀ t : Fin grid0.N, win0_0.index t 0 = t.val ∧ win0_0.index t 1 = 0)
theorem idx_w1 : ∀ t : Fin cfg0.N, win0_1.index t 0 = 0 ∧ win0_1.index t 1 = 0 :=
  (by decide +kernel : ∀ t : Fin grid0.N, win0_1.index t 0 = 0 ∧ win0_1.index t 1 = 0)
theorem idx_w2 : ∀ t : Fin cfg0.N, win0_2.index t 0 = 0 ∧ win0_2.index t 1 = 0 :=
  (by decide +kernel : ∀ t : Fin grid0.N, win0_2.index t 0 = 0 ∧ win0_2.index t 1 = 0)
theorem idx_o : ∀ t : Fin cfg0.N, win0_3.index t 0 = t.val ∧ win0_3.index t 1 = 0 :=
  (by decide +kernel : ∀ t : Fin grid0.N, win0_3.index t 0 = t.val ∧ win0_3.index t 1 = 0)

/-- The batch a grid point works on. -/
abbrev batch (t : Fin cfg0.N) : Fin 32 := ⟨t.val, N_lt t⟩

/-- Row `p` of point `t`'s block of activations is the row of channel `p` of batch `t`. -/
theorem xblk_apply (c : Dev nD) (t : Fin cfg0.N) (p : Fin 512) (k : Fin 1024) :
    (iblk m c 0 t : Vec Ideal S512x1024 .f32) (ix2 p k) = X m c (ix2 (Cert.Lcam.row (batch t) p) k) := by
  unfold iblk
  rw [View.read_apply]
  show V m c main_call0_v0 _ = _
  rw [V_X]
  refine congrArg (X m c) ?_
  funext a
  apply Fin.ext
  match a with
  | ⟨0, _⟩ =>
    show win0_0.index t 0 * 512 + 1 * p.val = t.val * 512 + p.val
    rw [(idx_x t).1]; omega
  | ⟨1, _⟩ =>
    show win0_0.index t 1 * 1024 + 1 * k.val = k.val
    rw [(idx_x t).2]; omega

/-- Every point's block of the first layer's weights is the whole matrix. -/
theorem w1blk_eq (c : Dev nD) (t : Fin cfg0.N) : (iblk m c 1 t : Vec Ideal S32x512 .f32) = W1m m c := by
  funext y
  unfold iblk
  rw [View.read_apply]
  show V m c main_call0_v1 _ = _
  rw [V_W1]
  refine congrArg (W1m m c) ?_
  funext a
  apply Fin.ext
  match a with
  | ⟨0, _⟩ =>
    show win0_1.index t 0 * 32 + 1 * (y 0).val = (y 0).val
    rw [(idx_w1 t).1]; omega
  | ⟨1, _⟩ =>
    show win0_1.index t 1 * 512 + 1 * (y 1).val = (y 1).val
    rw [(idx_w1 t).2]; omega

/-- Every point's block of the second layer's weights is the whole matrix. -/
theorem w2blk_eq (c : Dev nD) (t : Fin cfg0.N) : (iblk m c 2 t : Vec Ideal S512x32 .f32) = W2m m c := by
  funext y
  unfold iblk
  rw [View.read_apply]
  show V m c main_call0_v2 _ = _
  rw [V_W2]
  refine congrArg (W2m m c) ?_
  funext a
  apply Fin.ext
  match a with
  | ⟨0, _⟩ =>
    show win0_2.index t 0 * 512 + 1 * (y 0).val = (y 0).val
    rw [(idx_w2 t).1]; omega
  | ⟨1, _⟩ =>
    show win0_2.index t 1 * 32 + 1 * (y 1).val = (y 1).val
    rw [(idx_w2 t).2]; omega

/-! ## What a point writes back -/

/-- The body's stored value over a block whose rows are batch `b`'s channels, with the whole weight matrices, is the
    attention of batch `b`: the same sums, row `c'` of the block being row `row b c'` of the activations. -/
theorem pay_eq_att (Xa : FVec Ideal S16384x1024 .f32) (W1 : FVec Ideal S32x512 .f32) (W2 : FVec Ideal S512x32 .f32)
    (xb : FVec Ideal S512x1024 .f32) (b : Fin 32)
    (hx : ∀ (p : Fin 512) (k : Fin 1024), xb (ix2 p k) = Xa (ix2 (Cert.Lcam.row b p) k)) (cc : Fin 512) (u : Fin 1) :
    k0_pay1 (F := Ideal) W1 W2 xb (ix2 cc u) = Cert.Lcam.att Xa W1 W2 b cc := by
  rw [Cert.KernelIdeal.Pay.k0_pay1_apply]
  unfold Cert.Lcam.att Cert.Lcam.hidden Cert.Lcam.rowMax Cert.Lcam.rowAvg
  simp only [hx]

/-- The column of 16384 entries: entry `r` is the attention of channel `r mod 512` of batch `r / 512`. -/
def G (c : Dev nD) : S16384x1.Idx → Ideal .f32 := fun i =>
  Cert.Lcam.att (X m c) (W1m m c) (W2m m c)
    ⟨(i 0).val / 512, by have h : (i 0).val < 16384 := (i 0).isLt; omega⟩
    ⟨(i 0).val % 512, by omega⟩

/-- `G` at a row written as batch and channel. -/
theorem G_row (c : Dev nD) (b : Fin 32) (cc : Fin 512) (i : S16384x1.Idx) (hi : (i 0).val = b.val * 512 + cc.val) :
    G m c i = Cert.Lcam.att (X m c) (W1m m c) (W2m m c) b cc := by
  unfold G
  have hb := b.isLt
  have hc := cc.isLt
  congr 1
  · apply Fin.ext
    show (i 0).val / 512 = b.val
    omega
  · apply Fin.ext
    show (i 0).val % 512 = cc.val
    omega

/-- The body's stored value at point `t`, entry by entry: channel `y 0` of batch `t`. -/
theorem pay_blk (c : Dev nD) (t : Fin cfg0.N) :
    k0_pay1 (F := Ideal) (W1m m c) (W2m m c) (iblk m c 0 t)
      = fun y : S512x1.Idx => Cert.Lcam.att (X m c) (W1m m c) (W2m m c) (batch t) (y 0) := by
  funext y
  obtain ⟨cc, u, rfl⟩ : ∃ (cc : Fin 512) (u : Fin 1), y = ix2 cc u := ⟨y 0, y 1, eq_ix2 y⟩
  exact pay_eq_att (X m c) (W1m m c) (W2m m c) (iblk m c 0 t) (batch t) (xblk_apply m c t) cc u

/-- WHAT POINT `t` WRITES BACK is block `t` of the column. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S32x512) hz, View.ld_unit_zero (S := S512x32) hz, View.ld_unit_zero (S := S512x1024) hz]
  rw [w1blk_eq m c t, w2blk_eq m c t, pay_blk m c t]
  funext y
  have hy : (y 0).val < 512 := (y 0).isLt
  show Cert.Lcam.att (X m c) (W1m m c) (W2m m c) (batch t) ⟨(y 0).val, hy⟩ = G m c (((cfg0.win 3).blk t).view.emb y)
  refine (G_row m c (batch t) ⟨(y 0).val, hy⟩ (((cfg0.win 3).blk t).view.emb y) ?_).symm
  show win0_3.index t 0 * 512 + 1 * (y 0).val = t.val * 512 + (y 0).val
  rw [(idx_o t).1]; omega

/-! ## The column after the run -/

/-- An entry of the column is in point `t`'s block iff each coordinate is in the block's range on its axis. -/
theorem mem_blk (t : Fin cfg0.N) (i : S16384x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_call0_v3).slice (win0_3.rect t)).set ↔ _
  rw [View.set_slice_whole, Rect.mem_set_unit]
  exact Iff.rfl

/-- Row `r` of the column lies in the block of point `r / 512`. -/
theorem cover (i : S16384x1.Idx) : ∃ t : Fin cfg0.N, (cfg0.win 3).flush t = true ∧ i ∈ ((cfg0.win 3).blk t).view.set := by
  have h0 : (i 0).val < 16384 := (i 0).isLt
  have h1 : (i 1).val < 1 := (i 1).isLt
  obtain ⟨t, ht⟩ : ∃ t : Fin cfg0.N, t.val = (i 0).val / 512 :=
    ⟨⟨(i 0).val / 512, by show _ < grid0.N; rw [N_0]; omega⟩, rfl⟩
  refine ⟨t, flush0_3 t, ?_⟩
  rw [mem_blk]
  intro a
  match a with
  | ⟨0, _⟩ =>
    show win0_3.index t 0 * 512 ≤ (i 0).val ∧ (i 0).val < win0_3.index t 0 * 512 + 512
    rw [(idx_o t).1]; omega
  | ⟨1, _⟩ =>
    show win0_3.index t 1 * 1 ≤ (i 1).val ∧ (i 1).val < win0_3.index t 1 * 1 + 1
    rw [(idx_o t).2]; omega

/-- THE COLUMN after the run is `G`. -/
theorem final (c : Dev nD) : (dats m 0 c).arrAt 3 cfg0.N = G m c :=
  (dats m 0 c).arrAt_eq_of_cover 3 (G m c) (fun t _ => flushed_eq m c t) cover

/-! ## The host's reading of the column -/

/-- The result buffer after the host's reshape is the attention map. -/
theorem tail_eq (c : Dev nD) :
    Pipeline.afterTail₀ cfgs (dats m) 0 (V0 m) [hostOps1] c main_v0 = Cert.Lcam.out (X m c) (W1m m c) (W2m m c) := by
  unfold Pipeline.afterTail₀
  show StableHlo.after hostOps1 _ (Proc.devRef .tc main_v0) = _
  after_results
  rw [(Pipeline.withArrays_arr spec0 launch0.win.arr_inj c _ _ 3).trans (final m c)]
  funext i
  obtain ⟨b, cc, u, v, rfl⟩ : ∃ (b : Fin 32) (cc : Fin 512) (u v : Fin 1), i = ix4 b cc u v := ⟨i 0, i 1, i 2, i 3, eq_ix4 i⟩
  rw [Cert.Lcam.out_apply]
  have hb := b.isLt
  have hc := cc.isLt
  have hu := u.isLt
  have hv := v.isLt
  refine (shapeCast_apply (G m c) shapeCasts_S16384x1_S32x512x1x1 (ix4 b cc u v) (ix2 ⟨b.val * 512 + cc.val, by omega⟩ ⟨0, by omega⟩) ?_).trans ?_
  · rw [Shape.rowMajor_val_four, Shape.rowMajor_val_two]
    show (b.val * 512 + cc.val) * 1 + 0 = ((b.val * 512 + cc.val) * 1 + u.val) * 1 + v.val
    omega
  · exact G_row m c b cc _ rfl

/-- Every weakly fair execution of the kernel's program terminates with the result buffer at the attention map of the
    argument arrays, and the arguments unchanged. -/
theorem run_value : θ_run defs (onTc (τ := τ) (main (F := Ideal))) ⟨m, fun _ => 0, ρ⟩ (fun r => ∀ c : Dev nD,
      r.2.mem ((c.tc : Thread nD τ).loc main_v0) = Cert.Lcam.out (X m c) (W1m m c) (W2m m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun r h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.RefPool.lean ====
/-
  What the first reference kernel leaves: two columns of 16384 entries, one per row of the activations — the row's
  maximum, and its sum times 1/1024. The grid has eight points of 2048 rows each; every point resets its two output
  blocks, folds its rows in, and scales the sums.
-/
import proofs.«137948_g2000006314751908_pallasbulk_691_2_alg».proof.Proof.Gen.ReferenceIdeal.Frame
import proofs.«137948_g2000006314751908_pallasbulk_691_2_alg».proof.Proof.Spec
import proofs.«137948_g2000006314751908_pallasbulk_691_2_alg».proof.Proof.LibKeepdims
import Idealize.ShloMosaic.Lib.Pipeline.Value
import Idealize.ShloMosaic.Lib.StableHlo.Run
import Idealize.ShloMosaic.PureOps.Ideal.Laws
import Idealize.ShloMosaic.Lib.Tactic

open scoped BigOperators

noncomputable section

namespace Cert.ReferenceIdeal.Pool

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The activations as rows of spatial positions. -/
abbrev X (c : Dev nD) : FVec Ideal S16384x1024 .f32 :=
  shapeCast S16384x1024 (m ((c.tc : Thread nD τ).loc main_arg0) : S32x512x32x32.Idx → Ideal .f32) shapeCasts_S32x512x32x32_S16384x1024

/-! ## What the body's stores leave in each output block

The argument in order: what the body's stores leave in each output block, as the payload of the last store over the
reset value (for any float values); those payloads at one entry over the extended reals, where the maximum with the
reset value `-∞` is absorbed by the fold and the reset value zero by the sum; the input block of point `t` as rows
`2048·t … 2048·t + 2047` of the activations; so what point `t` writes back is block `t` of the column of row maxima
(of row means), and since row `r` lies in the block of point `r / 2048` the blocks cover each column. -/

section Pieces
variable {F : FTy → Type} [FloatOps F]

private theorem hz : (![0, 0] : Fin 2 → Nat) = fun _ => 0 := funext fun a => by fin_cases a <;> rfl

/-- The first output's buffer after the body: the reset value, then the maximum with the rows' maxima. -/
private theorem piece_max (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : cond0_1 i)
    (x0 : Vec F S2048x1024 .f32) :
    out0_A_1 c i arg2 harg2 arg3 harg3 arg4 harg4 hc0 hc1 x0 = k0_pay4 x0 k0_pay1 := by
  unfold out0_A_1
  rw [View.read_writes_eq_canon _ _ _ (cover0_A_1 c i arg2 harg2 arg3 harg3 arg4 harg4 hc0 hc1 x0)]
  unfold kernelRun0_A
  dsimp only
  sl_unfold_words
  rw [View.canon_cons_unit_zero (S := S2048x1) hz]
  simp only [View.readAt_eq_ld, harg2.read_unread, View.ld_unit_zero (S := S2048x1024) hz, View.readCov_unit_zero (S := S2048x1) _ hz]

/-- The second output's buffer after the body: the reset value, plus the rows' sums, scaled. -/
private theorem piece_sum (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : cond0_1 i)
    (x0 : Vec F S2048x1024 .f32) :
    out0_A_2 c i arg2 harg2 arg3 harg3 arg4 harg4 hc0 hc1 x0 = k0_pay6 (k0_pay5 x0 k0_pay2) := by
  unfold out0_A_2
  rw [View.read_writes_eq_canon _ _ _ (cover0_A_2 c i arg2 harg2 arg3 harg3 arg4 harg4 hc0 hc1 x0)]
  unfold kernelRun0_A
  dsimp only
  sl_unfold_words
  rw [View.canon_cons_unit_zero (S := S2048x1) hz, View.readCov_cons_toLoadRect]
  simp only [View.readAt_eq_ld, harg2.read_unread, View.ld_unit_zero (S := S2048x1024) hz, View.readCov_unit_zero (S := S2048x1) _ hz]

end Pieces

/-! ## The payloads at an entry, over the extended reals -/

/-- The index above row `p` of the reduced vector with column `k` inserted is `(p, k)`. -/
private theorem lift_row (h : S2048x1024.Reduces [1] S2048) (p : Fin 2048) (k : Fin 1024) :
    h.lift (ix1 p) k = ix2 p k := by
  funext a; apply Fin.ext
  match a with
  | ⟨0, _⟩ => rfl
  | ⟨1, _⟩ => rfl

/-- The block read through the reduction's inserted index, at one column. -/
private theorem rows_lift_apply (x0 : Vec Ideal S2048x1024 .f32) (p : Fin 2048) (k : Fin 1024) :
    k0_pay3 (F := Ideal) x0 (reduces_S2048x1024_S2048.lift (ix1 p) k) = x0 (ix2 p k) := by
  rw [lift_row]
  unfold k0_pay3
  rw [shapeCast_self]

/-- The block's rows read through the reduction's inserted index. -/
private theorem rows_lift (x0 : Vec Ideal S2048x1024 .f32) (p : Fin 2048) :
    (k0_pay3 (F := Ideal) x0 ∘ reduces_S2048x1024_S2048.lift (ix1 p)) = fun k : Fin 1024 => x0 (ix2 p k) :=
  funext fun k => rows_lift_apply x0 p k

/-- The reset value of the maximum column is `-∞` at every entry. -/
private theorem resetMax_apply (p : Fin 2048) :
    (shapeCast S2048x1 (k0_pay1 (F := Ideal)) shapeCasts_S2048x1_S2048x1 : S2048x1.Idx → Ideal .f32) (ix2 p (0 : Fin 1))
      = Cert.Lcam.negInf := by
  rw [shapeCast_self]; rfl

/-- The rows' maxima as a column: entry `p` is the fold of `max` from `-∞` over row `p`. -/
private theorem rowsMax_apply (x0 : Vec Ideal S2048x1024 .f32) (p : Fin 2048) :
    (shapeCast S2048x1 (multiReduction (F := Ideal) .maximumf [1] S2048 (k0_pay3 (F := Ideal) x0) 0xFF800000#32 reduces_S2048x1024_S2048 (.inl rfl) rfl) shapeCasts_S2048_S2048x1 : S2048x1.Idx → Ideal .f32) (ix2 p (0 : Fin 1))
      = (Finset.univ : Finset (Fin 1024)).fold max Cert.Lcam.negInf (fun k => x0 (ix2 p k)) := by
  refine (Cert.LibKeepdims.shapeCast_a_a1_apply _ _ p 0).trans ?_
  refine (Ideal.multiReduction_maximumf_single _ _ reduces_S2048x1024_S2048 _ _ (ix1 p)).trans ?_
  rw [rows_lift]
  rfl

/-- Entry `p` of the maximum column's payload: the fold of `max` from `-∞` over row `p` (the outer `max` with the
    reset value `-∞` changes nothing: a fold lies above the value it starts from). -/
private theorem pay_max_apply (x0 : Vec Ideal S2048x1024 .f32) (p : Fin 2048) :
    (k0_pay4 (F := Ideal) x0 (k0_pay1 (F := Ideal)) : S2048x1.Idx → Ideal .f32) (ix2 p (0 : Fin 1))
      = (Finset.univ : Finset (Fin 1024)).fold max Cert.Lcam.negInf (fun k => x0 (ix2 p k)) := by
  refine (maximumf_apply (s := S2048x1) (φ := .f32) _ _ (ix2 p (0 : Fin 1))).trans ?_
  refine (congrArg₂ max (resetMax_apply p) (rowsMax_apply x0 p)).trans ?_
  exact max_eq_right ((Finset.le_fold_max _).mpr (Or.inl le_rfl))

/-- The reset value of the sum column is zero at every entry. -/
private theorem resetSum_apply (p : Fin 2048) :
    (shapeCast S2048x1 (k0_pay2 (F := Ideal)) shapeCasts_S2048x1_S2048x1 : S2048x1.Idx → Ideal .f32) (ix2 p (0 : Fin 1))
      = 0 := by
  rw [shapeCast_self]; exact Ideal.ofBits_zero_f32

/-- The rows' sums as a column: entry `p` is the sum of row `p`. -/
private theorem rowsSum_apply (x0 : Vec Ideal S2048x1024 .f32) (p : Fin 2048) :
    (shapeCast S2048x1 (multiReduction (F := Ideal) .add [1] S2048 (k0_pay3 (F := Ideal) x0) 0x00000000#32 reduces_S2048x1024_S2048 (.inl rfl) rfl) shapeCasts_S2048_S2048x1 : S2048x1.Idx → Ideal .f32) (ix2 p (0 : Fin 1))
      = ∑ k : Fin 1024, x0 (ix2 p k) := by
  refine (Cert.LibKeepdims.shapeCast_a_a1_apply _ _ p 0).trans ?_
  refine (Ideal.multiReduction_add_single _ _ reduces_S2048x1024_S2048 _ _ (ix1 p)).trans ?_
  exact Finset.sum_congr rfl fun k _ => congrFun (rows_lift x0 p) k

/-- Entry `p` of the running sum after the point: zero plus the sum of row `p`. -/
private theorem pay_acc_apply (x0 : Vec Ideal S2048x1024 .f32) (p : Fin 2048) :
    (k0_pay5 (F := Ideal) x0 (k0_pay2 (F := Ideal)) : S2048x1.Idx → Ideal .f32) (ix2 p (0 : Fin 1))
      = ∑ k : Fin 1024, x0 (ix2 p k) := by
  refine (addf_apply (s := S2048x1) (φ := .f32) _ _ (ix2 p (0 : Fin 1))).trans ?_
  refine (congrArg₂ (· + ·) (resetSum_apply p) (rowsSum_apply x0 p)).trans ?_
  exact zero_add _

/-- Entry `p` of the sum column's payload: the sum of row `p` times 1/1024. -/
private theorem pay_sum_apply (x0 : Vec Ideal S2048x1024 .f32) (p : Fin 2048) :
    (k0_pay6 (F := Ideal) (k0_pay5 (F := Ideal) x0 (k0_pay2 (F := Ideal))) : S2048x1.Idx → Ideal .f32) (ix2 p (0 : Fin 1))
      = (∑ k : Fin 1024, x0 (ix2 p k)) * Cert.Lcam.invHW := by
  refine (mulf_apply (s := S2048x1) (φ := .f32) _ _ (ix2 p (0 : Fin 1))).trans ?_
  have e : (shapeCast S2048x1 (k0_pay5 (F := Ideal) x0 (k0_pay2 (F := Ideal))) shapeCasts_S2048x1_S2048x1 : S2048x1.Idx → Ideal .f32) (ix2 p (0 : Fin 1))
      = ∑ k : Fin 1024, x0 (ix2 p k) := by
    rw [shapeCast_self]; exact pay_acc_apply x0 p
  exact congrArg₂ (· * ·) e rfl

/-! ## From the blocks to the two columns -/

/-- The activations' array as the first region finds it: the reshape of the argument, `X`. -/
private theorem entry_eq (c : Dev nD) :
    (V1 m ρ c main_call0_v0 : S16384x1024.Idx → Ideal .f32) = X m c := by
  dsimp only [V1, W1, hostOps0]
  after_results
  rfl

/-- The input window's block at a point, as a block of literal shape. -/
private abbrev xblk (c : Dev nD) (t : Fin cfg0.N) : Vec Ideal S2048x1024 .f32 := iblk0 (V1 m ρ) c 0 t

/-- The index maps over the grid: point `t` reads row block `t` and writes row block `t` of each column. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry `(p, k)` of point `t`'s input block is `X` at row `2048·t + p`, column `k`. -/
private theorem xblk_apply (c : Dev nD) (t : Fin cfg0.N) (p : Fin 2048) (k : Fin 1024) (r : Fin 16384)
    (hr : r.val = 2048 * t.val + p.val) : xblk m ρ c t (ix2 p k) = X m c (ix2 r k) := by
  obtain ⟨e0, e1, -, -, -, -⟩ := idx_facts t
  show iblk0 (V1 m ρ) c 0 t (ix2 p k) = _
  unfold iblk0
  rw [View.read_apply]
  show (V1 m ρ c main_call0_v0 : S16384x1024.Idx → Ideal .f32) (((cfg0.win 0).blk t).view.emb (ix2 p k)) = _
  rw [entry_eq]
  refine congrArg (X m c) (funext fun a => Fin.ext ?_)
  match a with
  | ⟨0, _⟩ => show win0_0.index t (0 : Fin 2) * 2048 + 1 * p.val = r.val; rw [e0, hr]; omega
  | ⟨1, _⟩ => show win0_0.index t (1 : Fin 2) * 1024 + 1 * k.val = k.val; rw [e1]; omega

/-- What point `t` leaves at entry `j` of the maximum column's block: the maximum of row `2048·t + j₀`. -/
private theorem blockMax_apply (c : Dev nD) (t : Fin cfg0.N) (j : S2048x1.Idx) (r : Fin 16384)
    (hr : r.val = 2048 * t.val + (j 0).val) :
    (k0_pay4 (F := Ideal) (xblk m ρ c t) (k0_pay1 (F := Ideal)) : S2048x1.Idx → Ideal .f32) j = Cert.Lcam.rowMax (X m c) r := by
  obtain ⟨p, u, rfl⟩ : ∃ (p : Fin 2048) (u : Fin 1), j = ix2 p u := ⟨j 0, j 1, eq_ix2 j⟩
  obtain rfl : u = 0 := Subsingleton.elim _ _
  refine (pay_max_apply (xblk m ρ c t) p).trans ?_
  unfold Cert.Lcam.rowMax
  exact congrArg (fun f : Fin 1024 → EReal => (Finset.univ : Finset (Fin 1024)).fold max Cert.Lcam.negInf f)
    (funext fun k => xblk_apply m ρ c t p k r hr)

/-- What point `t` leaves at entry `j` of the mean column's block: the mean of row `2048·t + j₀`. -/
private theorem blockAvg_apply (c : Dev nD) (t : Fin cfg0.N) (j : S2048x1.Idx) (r : Fin 16384)
    (hr : r.val = 2048 * t.val + (j 0).val) :
    (k0_pay6 (F := Ideal) (k0_pay5 (F := Ideal) (xblk m ρ c t) (k0_pay2 (F := Ideal))) : S2048x1.Idx → Ideal .f32) j
      = Cert.Lcam.rowAvg (X m c) r := by
  obtain ⟨p, u, rfl⟩ : ∃ (p : Fin 2048) (u : Fin 1), j = ix2 p u := ⟨j 0, j 1, eq_ix2 j⟩
  obtain rfl : u = 0 := Subsingleton.elim _ _
  refine (pay_sum_apply (xblk m ρ c t) p).trans ?_
  unfold Cert.Lcam.rowAvg
  exact congrArg (· * Cert.Lcam.invHW) (Finset.sum_congr rfl fun k _ => xblk_apply m ρ c t p k r hr)

/-- The column of row maxima. -/
private abbrev colMax (c : Dev nD) : S16384x1.Idx → Ideal .f32 := fun i => Cert.Lcam.rowMax (X m c) ⟨(i 0).val, (i 0).isLt⟩
/-- The column of row means. -/
private abbrev colAvg (c : Dev nD) : S16384x1.Idx → Ideal .f32 := fun i => Cert.Lcam.rowAvg (X m c) ⟨(i 0).val, (i 0).isLt⟩

/-- What point `t` writes back to the first column is block `t` of the row maxima. -/
private theorem flushed_max (c : Dev nD) (t : Fin cfg0.N) :
    (dat0 (V1 m ρ) c).flushed 1 t = ((cfg0.win 1).blk t).view.read (Elt Ideal) (colMax m c) := by
  obtain ⟨-, -, e0, -, -, -⟩ := idx_facts t
  show (cfg0.win 1).cut (grid0.coords t) ((dat0 (V1 m ρ) c).after 1 t) = _
  rw [after0_1]
  unfold outsAt0
  dsimp only
  rw [piece_max (F := Ideal) c (grid0.coords t) (ms0_0 t) (hs0_0 t) (ms0_1 t) (hs0_1 t) (ms0_2 t) (hs0_2 t) (hcond0_0 t) (hcond0_1 t) (iblk0 (V1 m ρ) c 0 t)]
  funext y
  rw [View.read_apply]
  refine blockMax_apply m ρ c t _ _ ?_
  show win0_1.index t (0 : Fin 2) * 2048 + 1 * (y 0).val = 2048 * t.val + (y 0).val
  rw [e0]; omega

/-- What point `t` writes back to the second column is block `t` of the row means. -/
private theorem flushed_avg (c : Dev nD) (t : Fin cfg0.N) :
    (dat0 (V1 m ρ) c).flushed 2 t = ((cfg0.win 2).blk t).view.read (Elt Ideal) (colAvg m c) := by
  obtain ⟨-, -, -, -, e0, -⟩ := idx_facts t
  show (cfg0.win 2).cut (grid0.coords t) ((dat0 (V1 m ρ) c).after 2 t) = _
  rw [after0_2]
  unfold outsAt0
  dsimp only
  rw [piece_sum (F := Ideal) c (grid0.coords t) (ms0_0 t) (hs0_0 t) (ms0_1 t) (hs0_1 t) (ms0_2 t) (hs0_2 t) (hcond0_0 t) (hcond0_1 t) (iblk0 (V1 m ρ) c 0 t)]
  funext y
  rw [View.read_apply]
  refine blockAvg_apply m ρ c t _ _ ?_
  show win0_2.index t (0 : Fin 2) * 2048 + 1 * (y 0).val = 2048 * t.val + (y 0).val
  rw [e0]; omega

/-- An index of the first column is in point `t`'s block iff each coordinate is in the block's range on its axis. -/
private theorem mem_blk1 (t : Fin cfg0.N) (i : S16384x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_call0_v1_0).slice (win0_1.rect t)).set ↔ _
  rw [View.set_slice_whole, Rect.mem_set_unit]
  exact Iff.rfl

/-- The same for the second column. -/
private theorem mem_blk2 (t : Fin cfg0.N) (i : S16384x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_call0_v1_1).slice (win0_2.rect t)).set ↔ _
  rw [View.set_slice_whole, Rect.mem_set_unit]
  exact Iff.rfl

/-- Row `r` lies in the block of point `r / 2048`. -/
private theorem point_of_row (i : S16384x1.Idx) : (i 0).val / 2048 < cfg0.N := by
  have h : (i 0).val < 16384 := (i 0).isLt
  show _ < grid0.N
  rw [N_0]; omega

/-- Every entry of the first column is written back by the point whose block holds its row. -/
private theorem cover1 (i : S16384x1.Idx) :
    ∃ t : Fin cfg0.N, (cfg0.win 1).flush t = true ∧ i ∈ ((cfg0.win 1).blk t).view.set := by
  have h0 : (i 0).val < 16384 := (i 0).isLt
  have h1 : (i 1).val < 1 := (i 1).isLt
  refine ⟨⟨(i 0).val / 2048, point_of_row i⟩, flush0_1 _, ?_⟩
  obtain ⟨-, -, e0, e1, -, -⟩ := idx_facts ⟨(i 0).val / 2048, point_of_row i⟩
  rw [mem_blk1]
  intro a
  match a with
  | ⟨0, _⟩ =>
    show win0_1.index _ (0 : Fin 2) * 2048 ≤ (i 0).val ∧ (i 0).val < win0_1.index _ (0 : Fin 2) * 2048 + 2048
    rw [e0]
    show (i 0).val / 2048 * 2048 ≤ (i 0).val ∧ (i 0).val < (i 0).val / 2048 * 2048 + 2048
    omega
  | ⟨1, _⟩ =>
    show win0_1.index _ (1 : Fin 2) * 1 ≤ (i 1).val ∧ (i 1).val < win0_1.index _ (1 : Fin 2) * 1 + 1
    rw [e1]
    omega

/-- The same for the second column. -/
private theorem cover2 (i : S16384x1.Idx) :
    ∃ t : Fin cfg0.N, (cfg0.win 2).flush t = true ∧ i ∈ ((cfg0.win 2).blk t).view.set := by
  have h0 : (i 0).val < 16384 := (i 0).isLt
  have h1 : (i 1).val < 1 := (i 1).isLt
  refine ⟨⟨(i 0).val / 2048, point_of_row i⟩, flush0_2 _, ?_⟩
  obtain ⟨-, -, -, -, e0, e1⟩ := idx_facts ⟨(i 0).val / 2048, point_of_row i⟩
  rw [mem_blk2]
  intro a
  match a with
  | ⟨0, _⟩ =>
    show win0_2.index _ (0 : Fin 2) * 2048 ≤ (i 0).val ∧ (i 0).val < win0_2.index _ (0 : Fin 2) * 2048 + 2048
    rw [e0]
    show (i 0).val / 2048 * 2048 ≤ (i 0).val ∧ (i 0).val < (i 0).val / 2048 * 2048 + 2048
    omega
  | ⟨1, _⟩ =>
    show win0_2.index _ (1 : Fin 2) * 1 ≤ (i 1).val ∧ (i 1).val < win0_2.index _ (1 : Fin 2) * 1 + 1
    rw [e1]
    omega

/-- After the last point the first column holds the row maxima. -/
private theorem final_max (c : Dev nD) : (dat0 (V1 m ρ) c).arrAt 1 cfg0.N = colMax m c :=
  (dat0 (V1 m ρ) c).arrAt_eq_of_cover 1 (colMax m c) (fun t _ => flushed_max m ρ c t) cover1

/-- After the last point the second column holds the row means. -/
private theorem final_avg (c : Dev nD) : (dat0 (V1 m ρ) c).arrAt 2 cfg0.N = colAvg m c :=
  (dat0 (V1 m ρ) c).arrAt_eq_of_cover 2 (colAvg m c) (fun t _ => flushed_avg m ρ c t) cover2

/-- After the first region, entry `r` of the first output column is row `r`'s maximum. -/
theorem pool_max (c : Dev nD) (r : Fin 16384) :
    (V2 m ρ c main_call0_v1_0 : S16384x1.Idx → Ideal .f32) (ix2 r (0 : Fin 1)) = Cert.Lcam.rowMax (X m c) r := by
  have h : (V2 m ρ c main_call0_v1_0 : S16384x1.Idx → Ideal .f32) = colMax m c :=
    (W2_arr m ρ c 1).trans (final_max m ρ c)
  exact congrFun h (ix2 r (0 : Fin 1))

/-- After the first region, entry `r` of the second output column is row `r`'s mean. -/
theorem pool_avg (c : Dev nD) (r : Fin 16384) :
    (V2 m ρ c main_call0_v1_1 : S16384x1.Idx → Ideal .f32) (ix2 r (0 : Fin 1)) = Cert.Lcam.rowAvg (X m c) r := by
  have h : (V2 m ρ c main_call0_v1_1 : S16384x1.Idx → Ideal .f32) = colAvg m c :=
    (W2_arr m ρ c 2).trans (final_avg m ρ c)
  exact congrFun h (ix2 r (0 : Fin 1))

end Cert.ReferenceIdeal.Pool

end
-- ==== Proof.LibScatterWindow.lean ====
/-
  A scatter that writes one whole window of updates into a matrix at one start position, read at an entry.

  The scatter indices are a single index vector of length one: the start of the window on ONE axis of the operand
  (the other axis starts at zero). The updates are a matrix no larger than the operand, and the body of the scatter
  returns the update. Read at entry `(p, q)`: the update at the entry's offset inside the window if `(p, q)` lies in
  the window, the operand's own entry otherwise.

  The road. The scatter is a left fold, over the update indices, of "replace the entry the update lands on by the
  update". Read at one entry `i'`: if no update index of the list lands on `i'` the fold leaves the operand's entry;
  if exactly one does (the list has no repetition) the fold leaves that update. Here every update index `j` lands at
  `off + j` (the start `off` is the scatter index on the scattered axis and zero on the other; the window coordinate
  is `j` itself, no axis being inserted), always inside the operand, and `j ↦ off + j` is injective.
-/
import Idealize.ShloMosaic.PureOps.ShapeOps
import Idealize.ShloMosaic.Lib.ValueIdx

noncomputable section

namespace Cert.LibScatterWindow

open Idealize.ShloMosaic Idealize.ShloMosaic.ValueIdx

variable {α : Type} {A B a b w : Nat}

/-! ## The fold, read at one entry -/

section Fold
variable {s si u : Shape}

/-- One step of the fold when the body returns the update: the entry update index `n` lands on is replaced. -/
private def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w) (upd : u.Idx → α) :
    Host.scatter d (fun _ v => v) x idx upd = (List.finRange u.numel).foldl (step d idx upd) x := rfl

/-- A step whose update lands elsewhere leaves the entry. -/
private theorem step_miss (d : ScatterDims s si u) (idx : IVec si w) (upd : u.Idx → α) (r : s.Idx → α)
    (n : Fin u.numel) (i' : s.Idx) (h : d.resultIdx? (u.rowMajor.symm n) idx ≠ some i') :
    step d idx upd r n i' = r i' := by
  unfold step
  generalize d.resultIdx? (u.rowMajor.symm n) idx = o at h ⊢
  cases o with
  | none => rfl
  | some i =>
    have hne : i' ≠ i := fun e => h (e ▸ rfl)
    exact if_neg hne

/-- A step whose update lands on the entry writes the update there. -/
private theorem step_hit (d : ScatterDims s si u) (idx : IVec si w) (upd : u.Idx → α) (r : s.Idx → α)
    (n : Fin u.numel) (i' : s.Idx) (h : d.resultIdx? (u.rowMajor.symm n) idx = some i') :
    step d idx upd r n i' = upd (u.rowMajor.symm n) := by
  unfold step
  rw [h]
  exact if_pos rfl

/-- If no update index of the list lands on `i'`, the fold leaves the entry at `i'`. -/
private theorem foldl_miss (d : ScatterDims s si u) (idx : IVec si w) (upd : u.Idx → α) (i' : s.Idx) :
    ∀ (l : List (Fin u.numel)) (x : s.Idx → α),
      (∀ n ∈ l, d.resultIdx? (u.rowMajor.symm n) idx ≠ some i') → l.foldl (step d idx upd) x i' = x i'
  | [], _, _ => rfl
  | n :: t, x, h => by
      rw [List.foldl_cons, foldl_miss d idx upd i' t _ (fun m hm => h m (List.mem_cons_of_mem _ hm))]
      exact step_miss d idx upd x n i' (h n (List.mem_cons_self ..))

/-- If exactly one update index `n0` of a list without repetition lands on `i'`, the fold leaves that update at `i'`. -/
private theorem foldl_hit (d : ScatterDims s si u) (idx : IVec si w) (upd : u.Idx → α) (i' : s.Idx) (n0 : Fin u.numel)
    (h0 : d.resultIdx? (u.rowMajor.symm n0) idx = some i') :
    ∀ (l : List (Fin u.numel)) (x : s.Idx → α), l.Nodup → n0 ∈ l →
      (∀ n ∈ l, d.resultIdx? (u.rowMajor.symm n) idx = some i' → n = n0) →
      l.foldl (step d idx upd) x i' = upd (u.rowMajor.symm n0)
  | [], _, _, hm, _ => absurd hm List.not_mem_nil
  | n :: t, x, hnd, hm, huniq => by
      rw [List.foldl_cons]
      have hnd' := List.nodup_cons.1 hnd
      by_cases hn : n = n0
      · subst hn
        rw [foldl_miss d idx upd i' t _ ?_]
        · exact step_hit d idx upd x n i' h0
        · intro m hmt hres
          have hmn := huniq m (List.mem_cons_of_mem _ hmt) hres
          exact hnd'.1 (hmn ▸ hmt)
      · have hmt : n0 ∈ t := by
          rcases List.mem_cons.1 hm with e | e
          · exact absurd e.symm hn
          · exact e
        exact foldl_hit d idx upd i' n0 h0 t _ hnd'.2 hmt (fun m hmm => huniq m (List.mem_cons_of_mem _ hmm))

end Fold

/-! ## Where an update index lands -/

/-- The scatter indices' shape has one index. -/
private theorem idx11_eq (i i' : (⟨1, ![1]⟩ : Shape).Idx) : i = i' := by
  funext c
  match c with
  | ⟨0, hc⟩ =>
    have h1 : (i ⟨0, hc⟩).val < 1 := (i ⟨0, hc⟩).isLt
    have h2 : (i' ⟨0, hc⟩).val < 1 := (i' ⟨0, hc⟩).isLt
    exact Fin.ext (by omega)

/-- On the scattered axis the window starts at the one scatter index, read signed. -/
private theorem start_hit (d : ScatterDims ⟨2, ![A, B]⟩ ⟨1, ![1]⟩ ⟨2, ![a, b]⟩) (c0 : Fin 2)
    (hsd : d.scatterDimsToOperandDims = [c0]) (j : (⟨2, ![a, b]⟩ : Shape).Idx) (idx : IVec ⟨1, ![1]⟩ w) :
    d.start j idx c0 = (idx (ix1 (0 : Fin 1))).toInt := by
  unfold ScatterDims.start
  rw [dif_pos (by rw [hsd]; exact List.mem_singleton.2 rfl)]
  exact congrArg (fun i => (idx i).toInt) (idx11_eq _ _)

/-- On the other axis the window starts at zero. -/
private theorem start_other (d : ScatterDims ⟨2, ![A, B]⟩ ⟨1, ![1]⟩ ⟨2, ![a, b]⟩) (c0 : Fin 2)
    (hsd : d.scatterDimsToOperandDims = [c0]) (j : (⟨2, ![a, b]⟩ : Shape).Idx) (idx : IVec ⟨1, ![1]⟩ w)
    (c : Fin 2) (hc : c ≠ c0) : d.start j idx c = 0 := by
  unfold ScatterDims.start
  rw [dif_neg (by rw [hsd]; exact fun h => hc (List.mem_singleton.1 h))]

/-- No operand axis is inserted and the update's axes are the window axes in order: the window coordinate on an
    axis is the update index's own coordinate. -/
private theorem window_eq (d : ScatterDims ⟨2, ![A, B]⟩ ⟨1, ![1]⟩ ⟨2, ![a, b]⟩)
    (huw : d.updateWindowDims = [0, 1]) (hiw : d.insertedWindowDims = [])
    (j : (⟨2, ![a, b]⟩ : Shape).Idx) (c : Fin 2) : d.window j c = (j c).val := by
  obtain ⟨uw, iw, sd, ivd, wf⟩ := d
  simp only at huw hiw
  subst huw hiw
  match c with
  | ⟨0, _⟩ => rfl
  | ⟨1, _⟩ => rfl

/-- With the window's start `off` on each axis and the window inside the operand wherever it is put, update index
    `j` lands at `off + j`. -/
private theorem resultIdx_eq (d : ScatterDims ⟨2, ![A, B]⟩ ⟨1, ![1]⟩ ⟨2, ![a, b]⟩)
    (huw : d.updateWindowDims = [0, 1]) (hiw : d.insertedWindowDims = [])
    (idx : IVec ⟨1, ![1]⟩ w) (off : Fin 2 → Nat) (j : (⟨2, ![a, b]⟩ : Shape).Idx)
    (hs : ∀ c : Fin 2, d.start j idx c = (off c : Int))
    (hin : ∀ c : Fin 2, off c + (j c).val < (⟨2, ![A, B]⟩ : Shape).size c) :
    d.resultIdx? j idx = some (fun c => ⟨off c + (j c).val, hin c⟩) := by
  have hw := window_eq d huw hiw j
  unfold ScatterDims.resultIdx?
  have hall : ∀ c : Fin 2, 0 ≤ d.start j idx c + (d.window j c : Int)
      ∧ d.start j idx c + (d.window j c : Int) < ((⟨2, ![A, B]⟩ : Shape).size c : Int) := by
    intro c
    rw [hs c, hw c]
    have := hin c
    omega
  rw [dif_pos hall]
  congr 1
  funext c
  apply Fin.ext
  show (d.start j idx c + (d.window j c : Int)).toNat = off c + (j c).val
  rw [hs c, hw c]
  omega

/-- The scatter read at an entry, from where the update indices land: an entry `off + j0` holds update `j0`, an entry
    of no such form the operand's. -/
private theorem scatter_at (d : ScatterDims ⟨2, ![A, B]⟩ ⟨1, ![1]⟩ ⟨2, ![a, b]⟩)
    (huw : d.updateWindowDims = [0, 1]) (hiw : d.insertedWindowDims = [])
    (x : (⟨2, ![A, B]⟩ : Shape).Idx → α) (idx : IVec ⟨1, ![1]⟩ w) (upd : (⟨2, ![a, b]⟩ : Shape).Idx → α)
    (off : Fin 2 → Nat)
    (hs : ∀ (j : (⟨2, ![a, b]⟩ : Shape).Idx) (c : Fin 2), d.start j idx c = (off c : Int))
    (hin : ∀ (j : (⟨2, ![a, b]⟩ : Shape).Idx) (c : Fin 2), off c + (j c).val < (⟨2, ![A, B]⟩ : Shape).size c)
    (i' : (⟨2, ![A, B]⟩ : Shape).Idx) :
    (∀ j0 : (⟨2, ![a, b]⟩ : Shape).Idx, (∀ c : Fin 2, (i' c).val = off c + (j0 c).val) →
        Host.scatter d (fun _ v => v) x idx upd i' = upd j0)
    ∧ ((∀ j : (⟨2, ![a, b]⟩ : Shape).Idx, ¬ ∀ c : Fin 2, (i' c).val = off c + (j c).val) →
        Host.scatter d (fun _ v => v) x idx upd i' = x i') := by
  have hres : ∀ j : (⟨2, ![a, b]⟩ : Shape).Idx,
      d.resultIdx? j idx = some (fun c => ⟨off c + (j c).val, hin j c⟩) :=
    fun j => resultIdx_eq d huw hiw idx off j (hs j) (hin j)
  have hland : ∀ j : (⟨2, ![a, b]⟩ : Shape).Idx,
      d.resultIdx? j idx = some i' ↔ ∀ c : Fin 2, (i' c).val = off c + (j c).val := by
    intro j
    rw [hres j]
    constructor
    · intro h c
      have := congrFun (Option.some.inj h) c
      exact (congrArg Fin.val this).symm
    · intro h
      congr 1
      funext c
      exact Fin.ext (h c).symm
  rw [scatter_eq_foldl]
  constructor
  · intro j0 hj0
    have h0 : d.resultIdx? ((⟨2, ![a, b]⟩ : Shape).rowMajor.symm ((⟨2, ![a, b]⟩ : Shape).rowMajor j0)) idx = some i' := by
      rw [Equiv.symm_apply_apply]; exact (hland j0).2 hj0
    have := foldl_hit d idx upd i' ((⟨2, ![a, b]⟩ : Shape).rowMajor j0) h0 (List.finRange _) x
      (List.nodup_finRange _) (List.mem_finRange _) (by
        intro n _ hn
        have h1 := (hland _).1 hn
        apply ((⟨2, ![a, b]⟩ : Shape).rowMajor.symm_apply_eq).1
        funext c
        apply Fin.ext
        have := h1 c
        have := hj0 c
        omega)
    rw [this, Equiv.symm_apply_apply]
  · intro hno
    exact foldl_miss d idx upd i' (List.finRange _) x (fun n _ hn => hno _ ((hland _).1 hn))

/-! ## The two windows -/

/-- The window starts at row `o` (the one scatter index), column 0. -/
theorem scatter_window_rows (d : ScatterDims ⟨2, ![A, B]⟩ ⟨1, ![1]⟩ ⟨2, ![a, b]⟩)
    (huw : d.updateWindowDims = [0, 1]) (hiw : d.insertedWindowDims = [])
    (hsd : d.scatterDimsToOperandDims = [0]) (hivd : d.indexVectorDim = 0)
    (x : (⟨2, ![A, B]⟩ : Shape).Idx → α) (idx : IVec ⟨1, ![1]⟩ w) (upd : (⟨2, ![a, b]⟩ : Shape).Idx → α)
    (o : Nat) (ho : (idx (ix1 (0 : Fin 1))).toInt = (o : Int)) (hA : o + a ≤ A) (hB : b ≤ B)
    (p : Fin A) (q : Fin B) :
    Host.scatter d (fun _ v => v) x idx upd (ix2 p q)
      = if h : o ≤ p.val ∧ p.val < o + a ∧ q.val < b then upd (ix2 ⟨p.val - o, by omega⟩ ⟨q.val, h.2.2⟩) else x (ix2 p q) := by
  have hs : ∀ (j : (⟨2, ![a, b]⟩ : Shape).Idx) (c : Fin 2), d.start j idx c = ((![o, 0] : Fin 2 → Nat) c : Int) := by
    intro j c
    match c with
    | ⟨0, _⟩ => exact (start_hit d 0 hsd j idx).trans ho
    | ⟨1, _⟩ => exact start_other d 0 hsd j idx 1 (by decide)
  have hin : ∀ (j : (⟨2, ![a, b]⟩ : Shape).Idx) (c : Fin 2),
      (![o, 0] : Fin 2 → Nat) c + (j c).val < (⟨2, ![A, B]⟩ : Shape).size c := by
    intro j c
    match c with
    | ⟨0, hc⟩ =>
      have : (j ⟨0, hc⟩).val < a := (j ⟨0, hc⟩).isLt
      show o + (j ⟨0, hc⟩).val < A
      omega
    | ⟨1, hc⟩ =>
      have : (j ⟨1, hc⟩).val < b := (j ⟨1, hc⟩).isLt
      show 0 + (j ⟨1, hc⟩).val < B
      omega
  have key := scatter_at d huw hiw x idx upd ![o, 0] hs hin (ix2 p q)
  by_cases h : o ≤ p.val ∧ p.val < o + a ∧ q.val < b
  · rw [dif_pos h]
    apply key.1
    intro c
    match c with
    | ⟨0, _⟩ => show p.val = o + (p.val - o); omega
    | ⟨1, _⟩ => show q.val = 0 + q.val; omega
  · rw [dif_neg h]
    apply key.2
    intro j hj
    apply h
    have h0 : p.val = o + (j 0).val := hj 0
    have h1 : q.val = 0 + (j 1).val := hj 1
    have : (j 0).val < a := (j 0).isLt
    have : (j 1).val < b := (j 1).isLt
    omega

/-- The window starts at row 0, column `o` (the one scatter index). -/
theorem scatter_window_cols (d : ScatterDims ⟨2, ![A, B]⟩ ⟨1, ![1]⟩ ⟨2, ![a, b]⟩)
    (huw : d.updateWindowDims = [0, 1]) (hiw : d.insertedWindowDims = [])
    (hsd : d.scatterDimsToOperandDims = [1]) (hivd : d.indexVectorDim = 0)
    (x : (⟨2, ![A, B]⟩ : Shape).Idx → α) (idx : IVec ⟨1, ![1]⟩ w) (upd : (⟨2, ![a, b]⟩ : Shape).Idx → α)
    (o : Nat) (ho : (idx (ix1 (0 : Fin 1))).toInt = (o : Int)) (hA : a ≤ A) (hB : o + b ≤ B)
    (p : Fin A) (q : Fin B) :
    Host.scatter d (fun _ v => v) x idx upd (ix2 p q)
      = if h : p.val < a ∧ o ≤ q.val ∧ q.val < o + b then upd (ix2 ⟨p.val, h.1⟩ ⟨q.val - o, by omega⟩) else x (ix2 p q) := by
  have hs : ∀ (j : (⟨2, ![a, b]⟩ : Shape).Idx) (c : Fin 2), d.start j idx c = ((![0, o] : Fin 2 → Nat) c : Int) := by
    intro j c
    match c with
    | ⟨0, _⟩ => exact start_other d 1 hsd j idx 0 (by decide)
    | ⟨1, _⟩ => exact (start_hit d 1 hsd j idx).trans ho
  have hin : ∀ (j : (⟨2, ![a, b]⟩ : Shape).Idx) (c : Fin 2),
      (![0, o] : Fin 2 → Nat) c + (j c).val < (⟨2, ![A, B]⟩ : Shape).size c := by
    intro j c
    match c with
    | ⟨0, hc⟩ =>
      have : (j ⟨0, hc⟩).val < a := (j ⟨0, hc⟩).isLt
      show 0 + (j ⟨0, hc⟩).val < A
      omega
    | ⟨1, hc⟩ =>
      have : (j ⟨1, hc⟩).val < b := (j ⟨1, hc⟩).isLt
      show o + (j ⟨1, hc⟩).val < B
      omega
  have key := scatter_at d huw hiw x idx upd ![0, o] hs hin (ix2 p q)
  by_cases h : p.val < a ∧ o ≤ q.val ∧ q.val < o + b
  · rw [dif_pos h]
    apply key.1
    intro c
    match c with
    | ⟨0, _⟩ => show p.val = 0 + p.val; omega
    | ⟨1, _⟩ => show q.val = o + (q.val - o); omega
  · rw [dif_neg h]
    apply key.2
    intro j hj
    apply h
    have h0 : p.val = 0 + (j 0).val := hj 0
    have h1 : q.val = o + (j 1).val := hj 1
    have : (j 0).val < a := (j 0).isLt
    have : (j 1).val < b := (j 1).isLt
    omega

end Cert.LibScatterWindow

end
-- ==== Proof.RefGlue.lean ====
/-
  Between the two reference kernels. The host lays the two pooled columns out as 32 × 512 matrices and stacks them as
  the 64 rows of one matrix; it transposes each weight matrix and pads its hidden axis from 32 to 128 with zeros.
-/
import proofs.«137948_g2000006314751908_pallasbulk_691_2_alg».proof.Proof.Gen.ReferenceIdeal.Frame
import proofs.«137948_g2000006314751908_pallasbulk_691_2_alg».proof.Proof.Spec
import proofs.«137948_g2000006314751908_pallasbulk_691_2_alg».proof.Proof.LibScatterWindow
import Idealize.ShloMosaic.Lib.Pipeline.Value
import Idealize.ShloMosaic.Lib.StableHlo.Run

noncomputable section

namespace Cert.ReferenceIdeal.Glue

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The first layer's weights as a matrix. -/
abbrev W1m (c : Dev nD) : FVec Ideal S32x512 .f32 :=
  shapeCast S32x512 (m ((c.tc : Thread nD τ).loc main_arg1) : S32x512x1x1.Idx → Ideal .f32) shapeCasts_S32x512x1x1_S32x512
/-- The second layer's weights as a matrix. -/
abbrev W2m (c : Dev nD) : FVec Ideal S512x32 .f32 :=
  shapeCast S512x32 (m ((c.tc : Thread nD τ).loc main_arg2) : S512x32x1x1.Idx → Ideal .f32) shapeCasts_S512x32x1x1_S512x32

/-! ## The three results of the host operations, as terms over the contents they start from -/

/-- A column of 16384 entries laid out as 32 rows of 512. -/
private abbrev col (v : S16384x1.Idx → Ideal .f32) : S32x512.Idx → Ideal .f32 :=
  shapeCast S32x512 (shapeCast S16384 v shapeCasts_S16384x1_S16384) shapeCasts_S16384_S32x512

/-- The zero matrix of a shape. -/
private abbrev zeros (s : Shape) (h : S_.BroadcastsInDim s (![] : Fin 0 → Fin s.rank)) : s.Idx → Ideal .f32 :=
  broadcastInDim s ![] h (constant (F := Ideal) S_ .f32 0x00000000#32)

/-- The one scatter index: a window's start. -/
private abbrev start (b : BitVec 32) : IVec S1 32 := broadcastInDim S1 ![] bcast_S_S1 (constantI S_ 32 b)

/-- Contents carried to a buffer's own type and back are the contents. -/
private theorem ofBuf_toBuf {T : BufTy} {Val : EltTy → Type} (x : StableHlo.TRef sig T) (v : T.Contents Val) :
    x.ofBuf (x.toBuf v) = v := by
  obtain ⟨r, h, _, _⟩ := x
  subst h
  rfl

/-- A window write is a function of its three operands. -/
private theorem scatter_congr {so si su : Shape} {α : Type} {w : Nat} (d : ScatterDims so si su) (f : α → α → α)
    {x x' : so.Idx → α} {i i' : IVec si w} {u u' : su.Idx → α} (hx : x = x') (hi : i = i') (hu : u = u') :
    Host.scatter d f x i u = Host.scatter d f x' i' u' := by
  subst hx hi hu; rfl

attribute [local irreducible] Host.scatter in
private theorem xs_term (W : Valuation τ sig (Elt Ideal)) :
    (StableHlo.after hostOps1 W (Proc.devRef .tc main_call0_v14) : S64x512.Idx → Ideal .f32)
      = Host.scatter scatter_S64x512_S1_S32x512_01_n_0_0 (fun _ b => b)
          (Host.scatter scatter_S64x512_S1_S32x512_01_n_0_0 (fun _ b => b)
            (zeros S64x512 bcast_S_S64x512) (start 0#32) (col (W (Proc.devRef .tc main_call0_v1_0))))
          (start 32#32) (col (W (Proc.devRef .tc main_call0_v1_1))) := by
  after_results
  simp only [ofBuf_toBuf]
  refine (cast_eq _ _).trans ?_
  exact scatter_congr _ _ (scatter_congr _ _ rfl rfl rfl) rfl rfl

attribute [local irreducible] Host.scatter in
private theorem w1p_term (W : Valuation τ sig (Elt Ideal)) :
    (StableHlo.after hostOps1 W (Proc.devRef .tc main_call0_v17) : S512x128.Idx → Ideal .f32)
      = Host.scatter scatter_S512x128_S1_S512x32_01_n_1_0 (fun _ b => b)
          (zeros S512x128 bcast_S_S512x128) (start 0#32)
          (transpose S512x32 [1, 0] (shapeCast S32x512 (W (Proc.devRef .tc main_arg1) : S32x512x1x1.Idx → Ideal .f32) shapeCasts_S32x512x1x1_S32x512) transposes_S32x512_S512x32_1_0) := by
  after_results
  simp only [ofBuf_toBuf]
  refine (cast_eq _ _).trans ?_
  exact scatter_congr _ _ rfl rfl rfl

attribute [local irreducible] Host.scatter in
private theorem w2p_term (W : Valuation τ sig (Elt Ideal)) :
    (StableHlo.after hostOps1 W (Proc.devRef .tc main_call0_v20) : S128x512.Idx → Ideal .f32)
      = Host.scatter scatter_S128x512_S1_S32x512_01_n_0_0 (fun _ b => b)
          (zeros S128x512 bcast_S_S128x512) (start 0#32)
          (transpose S32x512 [1, 0] (shapeCast S512x32 (W (Proc.devRef .tc main_arg2) : S512x32x1x1.Idx → Ideal .f32) shapeCasts_S512x32x1x1_S512x32) transposes_S512x32_S32x512_1_0) := by
  after_results
  simp only [ofBuf_toBuf]
  refine (cast_eq _ _).trans ?_
  exact scatter_congr _ _ rfl rfl rfl

/-! ## The pieces read at an entry -/

/-- Entry (b, q) of the laid-out column is entry 512·b + q of the column. -/
private theorem col_apply (v : S16384x1.Idx → Ideal .f32) (b : Fin 32) (q : Fin 512) :
    col v (ix2 b q) = v (ix2 (Cert.Lcam.row b q) (0 : Fin 1)) := by
  refine (shapeCast_apply _ shapeCasts_S16384_S32x512 (ix2 b q) (ix1 (Cert.Lcam.row b q)) ?_).trans
    (shapeCast_apply _ shapeCasts_S16384x1_S16384 (ix1 (Cert.Lcam.row b q)) (ix2 (Cert.Lcam.row b q) (0 : Fin 1)) ?_)
  · rw [Shape.rowMajor_val_one, Shape.rowMajor_val_two]
    show (Cert.Lcam.row b q).val = b.val * 512 + q.val
    rfl
  · rw [Shape.rowMajor_val_two, Shape.rowMajor_val_one]
    show (Cert.Lcam.row b q).val * 1 + 0 = (Cert.Lcam.row b q).val
    omega

/-- Every entry of a zero matrix is the zero word. -/
private theorem zeros_apply (s : Shape) (h : S_.BroadcastsInDim s (![] : Fin 0 → Fin s.rank)) (i : s.Idx) :
    zeros s h i = Cert.Lcam.zero := rfl

/-- The one scatter index is the word it was broadcast from. -/
private theorem start_apply (b : BitVec 32) : start b (ix1 (0 : Fin 1)) = b := rfl

private theorem start0 : (start 0#32 (ix1 (0 : Fin 1))).toInt = ((0 : Nat) : Int) := by
  rw [start_apply]; decide
private theorem start32 : (start 32#32 (ix1 (0 : Fin 1))).toInt = ((32 : Nat) : Int) := by
  rw [start_apply]; decide

/-- Two windows of 32 rows written one after the other, at rows 0 and 32 of a matrix of 64 rows: the upper half
    reads the first window, the lower half the second, and nothing of the matrix written over is left. -/
private theorem stack_apply (x : S64x512.Idx → Ideal .f32) (u0 u1 : S32x512.Idx → Ideal .f32) (r : Fin 64) (q : Fin 512) :
    Host.scatter scatter_S64x512_S1_S32x512_01_n_0_0 (fun _ b => b)
        (Host.scatter scatter_S64x512_S1_S32x512_01_n_0_0 (fun _ b => b) x (start 0#32) u0) (start 32#32) u1 (ix2 r q)
      = if h : r.val < 32 then u0 (ix2 ⟨r.val, h⟩ q) else u1 (ix2 ⟨r.val - 32, by have := r.isLt; omega⟩ q) := by
  have hr := r.isLt
  have hq := q.isLt
  rw [Cert.LibScatterWindow.scatter_window_rows scatter_S64x512_S1_S32x512_01_n_0_0 rfl rfl rfl rfl _ (start 32#32) u1
    32 start32 (by norm_num) (by norm_num) r q]
  by_cases h : r.val < 32
  · have h' : ¬ (32 ≤ r.val ∧ r.val < 32 + 32 ∧ q.val < 512) := by omega
    rw [dif_neg h', dif_pos h,
      Cert.LibScatterWindow.scatter_window_rows scatter_S64x512_S1_S32x512_01_n_0_0 rfl rfl rfl rfl x (start 0#32) u0
        0 start0 (by norm_num) (by norm_num) r q]
    have h'' : 0 ≤ r.val ∧ r.val < 0 + 32 ∧ q.val < 512 := ⟨by omega, by omega, hq⟩
    rw [dif_pos h'']
    all_goals exact congrArg u0 (funext fun a => match a with | ⟨0, _⟩ => Fin.ext (Nat.sub_zero _) | ⟨1, _⟩ => rfl)
  · have h' : 32 ≤ r.val ∧ r.val < 32 + 32 ∧ q.val < 512 := ⟨by omega, by omega, hq⟩
    rw [dif_pos h', dif_neg h]

/-- A window of 32 columns written at column 0 of a zero matrix of 128 columns. -/
private theorem padCols_apply (u : S512x32.Idx → Ideal .f32) (p : Fin 512) (j : Fin 128) :
    Host.scatter scatter_S512x128_S1_S512x32_01_n_1_0 (fun _ b => b) (zeros S512x128 bcast_S_S512x128) (start 0#32) u (ix2 p j)
      = if h : j.val < 32 then u (ix2 p ⟨j.val, h⟩) else Cert.Lcam.zero := by
  have hp := p.isLt
  rw [Cert.LibScatterWindow.scatter_window_cols scatter_S512x128_S1_S512x32_01_n_1_0 rfl rfl rfl rfl _ (start 0#32) u
    0 start0 (by norm_num) (by norm_num) p j]
  by_cases h : j.val < 32
  · have h' : p.val < 512 ∧ 0 ≤ j.val ∧ j.val < 0 + 32 := ⟨hp, by omega, by omega⟩
    rw [dif_pos h', dif_pos h]
    all_goals exact congrArg u (funext fun a => match a with | ⟨0, _⟩ => rfl | ⟨1, _⟩ => Fin.ext (Nat.sub_zero _))
  · have h' : ¬ (p.val < 512 ∧ 0 ≤ j.val ∧ j.val < 0 + 32) := by omega
    rw [dif_neg h', dif_neg h, zeros_apply]

/-- A window of 32 rows written at row 0 of a zero matrix of 128 rows. -/
private theorem padRows_apply (u : S32x512.Idx → Ideal .f32) (j : Fin 128) (q : Fin 512) :
    Host.scatter scatter_S128x512_S1_S32x512_01_n_0_0 (fun _ b => b) (zeros S128x512 bcast_S_S128x512) (start 0#32) u (ix2 j q)
      = if h : j.val < 32 then u (ix2 ⟨j.val, h⟩ q) else Cert.Lcam.zero := by
  have hq := q.isLt
  rw [Cert.LibScatterWindow.scatter_window_rows scatter_S128x512_S1_S32x512_01_n_0_0 rfl rfl rfl rfl _ (start 0#32) u
    0 start0 (by norm_num) (by norm_num) j q]
  by_cases h : j.val < 32
  · have h' : 0 ≤ j.val ∧ j.val < 0 + 32 ∧ q.val < 512 := ⟨by omega, by omega, hq⟩
    rw [dif_pos h', dif_pos h]
    all_goals exact congrArg u (funext fun a => match a with | ⟨0, _⟩ => Fin.ext (Nat.sub_zero _) | ⟨1, _⟩ => rfl)
  · have h' : ¬ (0 ≤ j.val ∧ j.val < 0 + 32 ∧ q.val < 512) := by omega
    rw [dif_neg h', dif_neg h, zeros_apply]

/-- A transposed matrix read at (p, j) is the matrix at (j, p). -/
private theorem tr1_apply (x : S32x512.Idx → Ideal .f32) (p : Fin 512) (j : Fin 32) :
    transpose S512x32 [1, 0] x transposes_S32x512_S512x32_1_0 (ix2 p j) = x (ix2 j p) :=
  transpose_apply [1, 0] x transposes_S32x512_S512x32_1_0 (ix2 p j) (ix2 j p)
    (fun b => match b with | ⟨0, _⟩ => rfl | ⟨1, _⟩ => rfl)
private theorem tr2_apply (x : S512x32.Idx → Ideal .f32) (j : Fin 32) (q : Fin 512) :
    transpose S32x512 [1, 0] x transposes_S512x32_S32x512_1_0 (ix2 j q) = x (ix2 q j) :=
  transpose_apply [1, 0] x transposes_S512x32_S32x512_1_0 (ix2 j q) (ix2 q j)
    (fun b => match b with | ⟨0, _⟩ => rfl | ⟨1, _⟩ => rfl)

/-! ## The weights are the launch memory: no operation and no kernel writes an argument -/

private theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

private theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The stacked matrix the second kernel reads: rows 0–31 are the first pooled column laid out batch by channel,
    rows 32–63 the second. -/
theorem xs_apply (c : Dev nD) (r : Fin 64) (q : Fin 512) :
    (V3 m ρ c main_call0_v14 : S64x512.Idx → Ideal .f32) (ix2 r q)
      = if h : r.val < 32 then (V2 m ρ c main_call0_v1_0 : S16384x1.Idx → Ideal .f32) (ix2 (Cert.Lcam.row ⟨r.val, h⟩ q) (0 : Fin 1))
        else (V2 m ρ c main_call0_v1_1 : S16384x1.Idx → Ideal .f32) (ix2 (Cert.Lcam.row ⟨r.val - 32, by have := r.isLt; omega⟩ q) (0 : Fin 1)) := by
  show (StableHlo.after hostOps1 (W2 m ρ c) (Proc.devRef .tc main_call0_v14) : S64x512.Idx → Ideal .f32) (ix2 r q) = _
  rw [xs_term, stack_apply]
  by_cases h : r.val < 32
  · rw [dif_pos h, dif_pos h, col_apply]
  · rw [dif_neg h, dif_neg h, col_apply]

/-- The padded transposed first layer the second kernel reads. -/
theorem w1p_apply (c : Dev nD) (p : Fin 512) (j : Fin 128) :
    (V3 m ρ c main_call0_v17 : S512x128.Idx → Ideal .f32) (ix2 p j) = Cert.Lcam.w1Pad (W1m m c) p j := by
  show (StableHlo.after hostOps1 (W2 m ρ c) (Proc.devRef .tc main_call0_v17) : S512x128.Idx → Ideal .f32) (ix2 p j) = _
  rw [w1p_term, padCols_apply, W2_arg1]
  unfold Cert.Lcam.w1Pad
  by_cases h : j.val < 32
  · rw [dif_pos h, dif_pos h, tr1_apply]
  · rw [dif_neg h, dif_neg h]

/-- The padded transposed second layer the second kernel reads. -/
theorem w2p_apply (c : Dev nD) (j : Fin 128) (q : Fin 512) :
    (V3 m ρ c main_call0_v20 : S128x512.Idx → Ideal .f32) (ix2 j q) = Cert.Lcam.w2Pad (W2m m c) j q := by
  show (StableHlo.after hostOps1 (W2 m ρ c) (Proc.devRef .tc main_call0_v20) : S128x512.Idx → Ideal .f32) (ix2 j q) = _
  rw [w2p_term, padRows_apply, W2_arg2]
  unfold Cert.Lcam.w2Pad
  by_cases h : j.val < 32
  · rw [dif_pos h, dif_pos h, tr2_apply]
  · rw [dif_neg h, dif_neg h]

end Cert.ReferenceIdeal.Glue

end
-- ==== Proof.RefTail.lean ====
/-
  The second reference kernel and what follows it. The kernel has no grid: each window's one block is its whole array,
  and its one store writes the whole result, which the host then reads as the 32 × 512 × 1 × 1 attention map.
-/
import proofs.«137948_g2000006314751908_pallasbulk_691_2_alg».proof.Proof.Gen.ReferenceIdeal.Frame
import Idealize.ShloMosaic.Lib.Pipeline.Value
import Idealize.ShloMosaic.Lib.ValueIdx
import Idealize.ShloMosaic.Lib.StableHlo.Run

noncomputable section

namespace Cert.ReferenceIdeal.Tail

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The zero offsets as the accesses spell them. -/
private theorem hz : (![0, 0] : Fin 2 → Nat) = fun _ => 0 := funext fun a => by fin_cases a <;> rfl

section Generic
variable {F : FTy → Type} [FloatOps F]

/-- The one store through the whole staging buffer leaves its payload, and each load through a whole buffer reads its contents. -/
private theorem out_eq (x0 : Vec F S64x512 .f32) (x1 : Vec F S512x128 .f32) (x2 : Vec F S128x512 .f32) :
    out1_3 x0 x1 x2 = k1_pay1 x0 x1 x2 := by
  unfold out1_3
  rw [View.canon_unit_zero hz]
  simp only [View.ld_unit_zero (S := S64x512) hz, View.ld_unit_zero (S := S512x128) hz, View.ld_unit_zero (S := S128x512) hz]

variable (V : (c : Dev nD) → (b : Ref sig .tc) → Buf (Elt F) ((c : Thread nD τ).loc b))

/-- With no grid a window's block is its array: the block read off the array is the array. -/
private theorem iblk_0 (c : Dev nD) (t : Fin cfg1.N) : (iblk1 V c 0 t : Vec F S64x512 .f32) = V c main_call0_v14 := by
  unfold iblk1
  exact Memref.read_access_unit_zero (Elt F) main_call0_v14 (off := fun a => win1_0.index t a * S64x512.size a)
    (funext fun a => Nat.zero_mul _) _ (V c main_call0_v14)
private theorem iblk_1 (c : Dev nD) (t : Fin cfg1.N) : (iblk1 V c 1 t : Vec F S512x128 .f32) = V c main_call0_v17 := by
  unfold iblk1
  exact Memref.read_access_unit_zero (Elt F) main_call0_v17 (off := fun a => win1_1.index t a * S512x128.size a)
    (funext fun a => Nat.zero_mul _) _ (V c main_call0_v17)
private theorem iblk_2 (c : Dev nD) (t : Fin cfg1.N) : (iblk1 V c 2 t : Vec F S128x512 .f32) = V c main_call0_v20 := by
  unfold iblk1
  exact Memref.read_access_unit_zero (Elt F) main_call0_v20 (off := fun a => win1_2.index t a * S128x512.size a)
    (funext fun a => Nat.zero_mul _) _ (V c main_call0_v20)

/-- The kernel's stored value of the three arrays as the region finds them. -/
private abbrev stored (c : Dev nD) : Vec F S32x512 .f32 :=
  k1_pay1 (V c main_call0_v14) (V c main_call0_v17) (V c main_call0_v20)

/-- The one write-back writes the stored value: the result window's block, read through zero offsets, is the whole array. -/
private theorem flushed_eq (c : Dev nD) (t : Fin cfg1.N) :
    (dat1 V c).flushed 3 t = ((cfg1.win 3).blk t).view.read (Elt F) (stored V c) := by
  show (cfg1.win 3).cut (grid1.coords t) ((dat1 V c).after 3 t) = _
  rw [after1_3, out_eq, iblk_0, iblk_1, iblk_2]
  exact (Memref.read_access_unit_zero (Elt F) main_call0_v21 (off := fun a => win1_3.index t a * S32x512.size a)
    (funext fun a => Nat.zero_mul _) _ (stored V c)).symm

/-- So the result array ends holding the stored value: the one point's block covers the array. -/
private theorem final (c : Dev nD) : (dat1 V c).arrAt 3 cfg1.N = stored V c :=
  (dat1 V c).arrAt_eq_of_cover 3 (stored V c) (fun t _ => flushed_eq V c t) fun i =>
    ⟨t1_0, flush1_3 t1_0, by
      show i ∈ ((View.whole main_call0_v21).slice (win1_3.rect t1_0)).set
      rw [View.set_slice_whole, Rect.mem_set_unit]
      intro a
      refine ⟨?_, ?_⟩
      · show 0 * S32x512.size a ≤ (i a : Nat)
        rw [Nat.zero_mul]; exact Nat.zero_le _
      · show (i a : Nat) < 0 * S32x512.size a + S32x512.size a
        rw [Nat.zero_mul, Nat.zero_add]; exact (i a).isLt⟩
end Generic

/-- The result buffer at the end: the second kernel's stored value of the three arrays it reads, as a 32 × 512 × 1 × 1 array. -/
theorem result_eq (c : Dev nD) :
    W5 m ρ c (Proc.devRef .tc main_v0)
      = shapeCast S32x512x1x1
          (k1_pay1 (F := Ideal) (V3 m ρ c main_call0_v14) (V3 m ρ c main_call0_v17) (V3 m ρ c main_call0_v20))
          shapeCasts_S32x512_S32x512x1x1 := by
  have e : W4 m ρ c (Proc.devRef .tc main_call0_v21) = stored (V3 m ρ) c :=
    (W4_arr m ρ c 3).trans (final (V3 m ρ) c)
  show StableHlo.after hostOps2 (W4 m ρ c) (Proc.devRef .tc main_v0) = _
  after_results
  exact congrArg (fun x => shapeCast S32x512x1x1 x shapeCasts_S32x512_S32x512x1x1) e

end Cert.ReferenceIdeal.Tail

end
-- ==== Proof.RefMlp.lean ====
/-
  The second reference kernel's stored value at one entry: the stacked rows through both padded layers, row `b` added
  to row `32 + b`, then the logistic function.
-/
import proofs.«137948_g2000006314751908_pallasbulk_691_2_alg».proof.Proof.Gen.ReferenceIdeal.Skeleton
import proofs.«137948_g2000006314751908_pallasbulk_691_2_alg».proof.Proof.Spec
import proofs.«137948_g2000006314751908_pallasbulk_691_2_alg».proof.Proof.LibMatmulPlain
import Idealize.ShloMosaic.Lib.Pipeline.Value
import Idealize.ShloMosaic.Lib.ValueLayout
import Idealize.ShloMosaic.PureOps.Ideal.Laws

open scoped BigOperators

noncomputable section

namespace Cert.ReferenceIdeal.Mlp

open Idealize.ShloMosaic Idealize.ShloMosaic.ValueIdx Cert.ReferenceIdeal Cert.ReferenceIdeal.Gen

/-- The first product into the zero accumulator, at (p, j): the sum over the 512 channels. -/
private theorem first_apply (x : FVec Ideal S64x512 .f32) (w : FVec Ideal S512x128 .f32) (p : Fin 64) (j : Fin 128) :
    matmul dot_S64x512_S512x128_S64x128_1_0_0_1_n_n none x w (constant (F := Ideal) S64x128 .f32 0x00000000#32) (ix2 p j)
      = ∑ c' : Fin 512, x (ix2 p c') * w (ix2 c' j) :=
  Cert.LibMatmulPlain.matmul_zero_plain_apply dot_S64x512_S512x128_S64x128_1_0_0_1_n_n_wf none x w p j

/-- The second product into the zero accumulator, at (p, q): the sum over the 128 hidden units. -/
private theorem second_apply (h : FVec Ideal S64x128 .f32) (w : FVec Ideal S128x512 .f32) (p : Fin 64) (q : Fin 512) :
    matmul dot_S64x128_S128x512_S64x512_1_0_0_1_n_n none h w (constant (F := Ideal) S64x512 .f32 0x00000000#32) (ix2 p q)
      = ∑ j : Fin 128, h (ix2 p j) * w (ix2 j q) :=
  Cert.LibMatmulPlain.matmul_zero_plain_apply dot_S64x128_S128x512_S64x512_1_0_0_1_n_n_wf none h w p q

/-- One stacked row through both layers, at channel q: the clamped first product through the second. The identity
    casts of the three operands drop out. -/
private theorem row_apply (xs : FVec Ideal S64x512 .f32) (w1p : FVec Ideal S512x128 .f32) (w2p : FVec Ideal S128x512 .f32)
    (h1 : S64x512.ShapeCasts S64x512) (h2 : S512x128.ShapeCasts S512x128) (h3 : S128x512.ShapeCasts S128x512)
    (p : Fin 64) (q : Fin 512) :
    matmul dot_S64x128_S128x512_S64x512_1_0_0_1_n_n none
        (maximumf
          (matmul dot_S64x512_S512x128_S64x128_1_0_0_1_n_n none (shapeCast S64x512 xs h1) (shapeCast S512x128 w1p h2)
            (constant (F := Ideal) S64x128 .f32 0x00000000#32))
          (broadcast S64x128 (FloatOps.ofBits (F := Ideal) .f32 0x00000000#32)))
        (shapeCast S128x512 w2p h3) (constant (F := Ideal) S64x512 .f32 0x00000000#32) (ix2 p q)
      = ∑ j : Fin 128, max (∑ c' : Fin 512, xs (ix2 p c') * w1p (ix2 c' j)) Cert.Lcam.zero * w2p (ix2 j q) := by
  have e1 : shapeCast S64x512 xs h1 = xs := shapeCast_self _ _
  have e2 : shapeCast S512x128 w1p h2 = w1p := shapeCast_self _ _
  have e3 : shapeCast S128x512 w2p h3 = w2p := shapeCast_self _ _
  rw [e1, e2, e3]
  refine (second_apply _ _ p q).trans (Finset.sum_congr rfl fun j _ => ?_)
  exact congrArg (fun t => max t Cert.Lcam.zero * w2p (ix2 j q)) (first_apply xs w1p p j)

theorem k1_pay1_apply (xs : FVec Ideal S64x512 .f32) (w1p : FVec Ideal S512x128 .f32) (w2p : FVec Ideal S128x512 .f32)
    (b : Fin 32) (q : Fin 512) :
    k1_pay1 (F := Ideal) xs w1p w2p (ix2 b q)
      = Ideal.logistic
          ((∑ j : Fin 128, max (∑ c' : Fin 512, xs (ix2 (⟨b.val, by have := b.isLt; omega⟩ : Fin 64) c') * w1p (ix2 c' j)) Cert.Lcam.zero * w2p (ix2 j q))
           + (∑ j : Fin 128, max (∑ c' : Fin 512, xs (ix2 (⟨32 + b.val, by have := b.isLt; omega⟩ : Fin 64) c') * w1p (ix2 c' j)) Cert.Lcam.zero * w2p (ix2 j q))) := by
  unfold Cert.ReferenceIdeal.Gen.k1_pay1
  show Ideal.logistic (_ + _) = _
  have hb : b.val < 32 := b.isLt
  refine congrArg Ideal.logistic (congrArg₂ (· + ·) ?_ ?_)
  -- rows 0 … 31 of the second product: row b
  · refine (slice2_axis0_apply (n0 := 64) (n1 := 512) (m := 32) 0 _ _ b q (⟨b.val, by omega⟩ : Fin 64) (Nat.zero_add _).symm).trans ?_
    exact row_apply xs w1p w2p _ _ _ _ q
  -- rows 32 … 63 of the second product: row 32 + b
  · refine (slice2_axis0_apply (n0 := 64) (n1 := 512) (m := 32) 32 _ _ b q (⟨32 + b.val, by omega⟩ : Fin 64) rfl).trans ?_
    exact row_apply xs w1p w2p _ _ _ _ q

end Cert.ReferenceIdeal.Mlp

end
-- ==== Proof.RefValue.lean ====
/-
  The reference's run with its result named. The result buffer ends at the second kernel's stored value of the stacked
  pooled rows and the two padded weight matrices; entry by entry that is the stacked arrangement of the attention map
  (`Cert.Lcam.attRef`), which is the attention map itself (`Cert.Lcam.attRef_eq_att`).
-/
import proofs.«137948_g2000006314751908_pallasbulk_691_2_alg».proof.Proof.RefRun
import proofs.«137948_g2000006314751908_pallasbulk_691_2_alg».proof.Proof.RefPool
import proofs.«137948_g2000006314751908_pallasbulk_691_2_alg».proof.Proof.RefGlue
import proofs.«137948_g2000006314751908_pallasbulk_691_2_alg».proof.Proof.RefTail
import proofs.«137948_g2000006314751908_pallasbulk_691_2_alg».proof.Proof.RefMlp

set_option maxRecDepth 16384

open scoped BigOperators

noncomputable section

namespace Cert.ReferenceIdeal.Value

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ) (ρ : Dev nD → PrngReg)

/-- A 32 × 512 matrix read as a 32 × 512 × 1 × 1 array: entry `(b, q, u, v)` is entry `(b, q)`. -/
theorem cast_out_apply (Y : FVec Ideal S32x512 .f32) (b : Fin 32) (q : Fin 512) (u v : Fin 1) :
    shapeCast S32x512x1x1 Y shapeCasts_S32x512_S32x512x1x1 (ix4 b q u v) = Y (ix2 b q) :=
  shapeCast_apply Y _ _ _ (by
    have hu : u.val = 0 := by omega
    have hv : v.val = 0 := by omega
    rw [Shape.rowMajor_val_four, Shape.rowMajor_val_two]
    show b.val * 512 + q.val = ((b.val * 512 + q.val) * 1 + u.val) * 1 + v.val
    omega)

/-- The stacked matrix the second kernel reads is the stacked pooled rows. -/
theorem xs_eq (c : Dev nD) (r : Fin 64) (q : Fin 512) :
    (V3 m ρ c main_call0_v14 : S64x512.Idx → Ideal .f32) (ix2 r q) = Cert.Lcam.stacked (Pool.X m c) r q := by
  rw [Glue.xs_apply]
  unfold Cert.Lcam.stacked
  split
  · exact Pool.pool_max m ρ c _
  · exact Pool.pool_avg m ρ c _

/-- The result buffer at the end is the attention map of the argument arrays. -/
theorem result_eq_out (c : Dev nD) :
    W5 m ρ c (Proc.devRef .tc main_v0) = Cert.Lcam.out (Pool.X m c) (Glue.W1m m c) (Glue.W2m m c) := by
  rw [Tail.result_eq]
  funext i
  obtain ⟨b, q, u, v, rfl⟩ : ∃ (b : Fin 32) (q : Fin 512) (u v : Fin 1), i = ix4 b q u v := ⟨i 0, i 1, i 2, i 3, eq_ix4 i⟩
  rw [Cert.Lcam.out_apply, ← Cert.Lcam.attRef_eq_att, cast_out_apply, Mlp.k1_pay1_apply]
  unfold Cert.Lcam.attRef Cert.Lcam.mlpRow
  refine congrArg Ideal.logistic ?_
  refine congrArg₂ (· + ·) (Finset.sum_congr rfl fun j _ => ?_) (Finset.sum_congr rfl fun j _ => ?_)
  · rw [Glue.w2p_apply]
    refine congrArg (fun z => max z Cert.Lcam.zero * Cert.Lcam.w2Pad (Glue.W2m m c) j q) ?_
    exact Finset.sum_congr rfl fun c' _ => by rw [xs_eq, Glue.w1p_apply]
  · rw [Glue.w2p_apply]
    refine congrArg (fun z => max z Cert.Lcam.zero * Cert.Lcam.w2Pad (Glue.W2m m c) j q) ?_
    exact Finset.sum_congr rfl fun c' _ => by rw [xs_eq, Glue.w1p_apply]

/-- Every weakly fair execution of the reference's program terminates with the result buffer at the attention map of
    the argument arrays, and the arguments unchanged. -/
theorem run_value : θ_run defs (onTc (τ := τ) (main (F := Ideal))) ⟨m, fun _ => 0, ρ⟩ (fun r => ∀ c : Dev nD,
      r.2.mem ((c.tc : Thread nD τ).loc main_v0) = Cert.Lcam.out (Pool.X m c) (Glue.W1m m c) (Glue.W2m m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq_out m ρ c), (h c).2⟩) (RefRun.run_value m ρ)

end Cert.ReferenceIdeal.Value

end
-- ==== Proof.lean ====
/-
  The channel-attention kernel against its two-stage reference, over the extended reals.

  Both programs compute, for every batch `b` and channel `c`, the logistic function of the second layer's row `c`
  applied to the two clamped hidden vectors of batch `b` (one from the channels' spatial maxima, one from their
  spatial means) — `Cert.Lcam.att`. The kernel does it in one pass per batch, adding the two hidden vectors before the
  second layer. The reference pools in a first kernel, stacks the two pooled matrices, pads the hidden width from 32
  to 128 with zeros, runs both layers on all 64 stacked rows in a second kernel, and adds row `b` to row `32 + b`.
  The padded units contribute `max 0 0 · 0 = 0`; the second layer distributes over the sum of the two clamped values
  because both are nonnegative (`Cert.Lcam.attRef_eq_att`). No finiteness of the inputs is used.

  The three frames are the generated ones; the ideal pass rewrote nothing, so the idealization claim is trivial; the
  value claim joins the two runs, each with its result buffer named as `Cert.Lcam.out` of the argument arrays.
-/
import proofs.«137948_g2000006314751908_pallasbulk_691_2_alg».proof.Defs
import proofs.«137948_g2000006314751908_pallasbulk_691_2_alg».proof.Proof.Gen.Kernel
import proofs.«137948_g2000006314751908_pallasbulk_691_2_alg».proof.Proof.Gen.Kernel.Skeleton
import proofs.«137948_g2000006314751908_pallasbulk_691_2_alg».proof.Proof.Gen.Kernel.Launch
import proofs.«137948_g2000006314751908_pallasbulk_691_2_alg».proof.Proof.Gen.Kernel.Points
import proofs.«137948_g2000006314751908_pallasbulk_691_2_alg».proof.Proof.Gen.Kernel.Frame
import proofs.«137948_g2000006314751908_pallasbulk_691_2_alg».proof.Proof.Gen.KernelIdeal
import proofs.«137948_g2000006314751908_pallasbulk_691_2_alg».proof.Proof.Gen.KernelIdeal.Skeleton
import proofs.«137948_g2000006314751908_pallasbulk_691_2_alg».proof.Proof.Gen.KernelIdeal.Launch
import proofs.«137948_g2000006314751908_pallasbulk_691_2_alg».proof.Proof.Gen.KernelIdeal.Points
import proofs.«137948_g2000006314751908_pallasbulk_691_2_alg».proof.Proof.Gen.KernelIdeal.Frame
import proofs.«137948_g2000006314751908_pallasbulk_691_2_alg».proof.Proof.Gen.ReferenceIdeal
import proofs.«137948_g2000006314751908_pallasbulk_691_2_alg».proof.Proof.Gen.ReferenceIdeal.Skeleton
import proofs.«137948_g2000006314751908_pallasbulk_691_2_alg».proof.Proof.Gen.ReferenceIdeal.Launch
import proofs.«137948_g2000006314751908_pallasbulk_691_2_alg».proof.Proof.Gen.ReferenceIdeal.Points
import proofs.«137948_g2000006314751908_pallasbulk_691_2_alg».proof.Proof.Gen.ReferenceIdeal.Frame
import proofs.«137948_g2000006314751908_pallasbulk_691_2_alg».proof.Proof.Gen.Pre_finite_inputs
import proofs.«137948_g2000006314751908_pallasbulk_691_2_alg».proof.Proof.KernelValue
import proofs.«137948_g2000006314751908_pallasbulk_691_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Memories that agree on the three arguments give the two programs the same reshaped arrays, hence the same attention map. -/
theorem agree_out
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.Lcam.out (Cert.ReferenceIdeal.Pool.X m' c) (Cert.ReferenceIdeal.Glue.W1m m' c) (Cert.ReferenceIdeal.Glue.W2m m' c)
      = Cert.Lcam.out (Cert.KernelIdeal.Val.X m c) (Cert.KernelIdeal.Val.W1m m c) (Cert.KernelIdeal.Val.W2m m c) := by
  have hX : Cert.ReferenceIdeal.Pool.X m' c = Cert.KernelIdeal.Val.X m c :=
    congrArg (fun a : Cert.KernelIdeal.S32x512x32x32.Idx → Ideal .f32 =>
      shapeCast Cert.KernelIdeal.S16384x1024 a Cert.KernelIdeal.Gen.shapeCasts_S32x512x32x32_S16384x1024) e0
  have hW1 : Cert.ReferenceIdeal.Glue.W1m m' c = Cert.KernelIdeal.Val.W1m m c :=
    congrArg (fun a : Cert.KernelIdeal.S32x512x1x1.Idx → Ideal .f32 =>
      shapeCast Cert.KernelIdeal.S32x512 a Cert.KernelIdeal.Gen.shapeCasts_S32x512x1x1_S32x512) e1
  have hW2 : Cert.ReferenceIdeal.Glue.W2m m' c = Cert.KernelIdeal.Val.W2m m c :=
    congrArg (fun a : Cert.KernelIdeal.S512x32x1x1.Idx → Ideal .f32 =>
      shapeCast Cert.KernelIdeal.S512x32 a Cert.KernelIdeal.Gen.shapeCasts_S512x32x1x1_S512x32) e2
  exact congr (congr (congrArg Cert.Lcam.out hX) hW1) hW2

/-- From memories that agree on the three arguments, both runs end with the result buffer at the attention map of
    those arguments. -/
theorem algebraic : Cert.algebraic_KernelIdeal_ReferenceIdeal := by
  intro m ρ m' ρ' _ hagree
  refine ⟨fun c => Cert.Lcam.out (Cert.KernelIdeal.Val.X m c) (Cert.KernelIdeal.Val.W1m m c) (Cert.KernelIdeal.Val.W2m m c),
    Cert.KernelIdeal.Val.run_value m ρ, ?_⟩
  exact (θ_run Cert.ReferenceIdeal.defs _ _).mono
    (fun _ h c => ⟨(h c).1.trans (agree_out m m' c (hagree c).1 (hagree c).2.1 (hagree c).2.2), (h c).2⟩)
    (Cert.ReferenceIdeal.Value.run_value m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
